-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S4x512x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S50000x300 : Shape := ⟨2, ![50000, 300]⟩
abbrev S64x512 : Shape := ⟨2, ![64, 512]⟩
abbrev S64x256 : Shape := ⟨2, ![64, 256]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S50000x300 : S_.BroadcastsInDim S50000x300 (![] : Fin 0 → Fin S50000x300.rank)
  reducesTo_S50000x300_S_d0_1 : S50000x300.ReducesTo [0, 1] S_
  bcast_S_S64x512 : S_.BroadcastsInDim S64x512 (![] : Fin 0 → Fin S64x512.rank)
  reducesTo_S64x512_S_d0_1 : S64x512.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg3 : IVec S64x256 32) (main_v15 : IVec S_ 1) (main_c_5 : IVec S_ 32) : IVec S_ 1 :=
  let main_v16 : IVec S64x256 32 := broadcastInDim S64x256 ![] bcast_S_S64x256 main_c_5
  let main_v17 : IVec S64x256 1 := cmpi .sge main_arg3 main_v16
  let main_c_6 : IVec S_ 32 := constantI S_ 32 50000#32
  let main_v18 : IVec S64x256 32 := broadcastInDim S64x256 ![] bcast_S_S64x256 main_c_6
  let main_v19 : IVec S64x256 1 := cmpi .slt main_arg3 main_v18
  let main_v20 : IVec S64x256 1 := andi main_v17 main_v19
  let main_c_7 : IVec S_ 1 := constantI S_ 1 1#1
  let main_v21 : IVec S_ 1 := (fun x v => Host.reduce IntOp.andi x v reducesTo_S64x256_S_d0_1 h_S_) main_v20 main_c_7
  let main_v22 : IVec S_ 1 := andi main_v15 main_v21
  main_v22

def fn {F : FTy → Type} [FloatOps F] (main_arg0 : FVec F S64x512x768 .f32) (main_arg1 : FVec F S50000x300 .f32) (main_arg2 : IVec S64x512 32) (main_arg3 : IVec S64x256 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S50000x300 .f32 := Host.absf main_arg1
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  let main_c_2 : IVec S_ 32 := constantI S_ 32 0#32
  let main_v9 : IVec S64x512 32 := broadcastInDim S64x512 ![] bcast_S_S64x512 main_c_2
  let main_v10 : IVec S64x512 1 := cmpi .sge main_arg2 main_v9
  let main_c_3 : IVec S_ 32 := constantI S_ 32 256#32
  let main_v11 : IVec S64x512 32 := broadcastInDim S64x512 ![] bcast_S_S64x512 main_c_3
  let main_v12 : IVec S64x512 1 := cmpi .slt main_arg2 main_v11
  let main_v13 : IVec S64x512 1 := andi main_v10 main_v12
  let main_c_4 : IVec S_ 1 := constantI S_ 1 1#1
  let main_v14 : IVec S_ 1 := (fun x v => Host.reduce IntOp.andi x v reducesTo_S64x512_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S64x512x768 : Shape := ⟨3, ![64, 512, 768]⟩
abbrev S50000x300 : Shape := ⟨2, ![50000, 300]⟩
abbrev S64x512 : Shape := ⟨2, ![64, 512]⟩
abbrev S64x256 : Shape := ⟨2, ![64, 256]⟩
abbrev S_ : Shape := ⟨0, ![]⟩
abbrev S64x256x1 : Shape := ⟨3, ![64, 256, 1]⟩
abbrev S1 : Shape := ⟨1, ![1]⟩
abbrev S1x1x1 : Shape := ⟨3, ![1, 1, 1]⟩
abbrev S64x256x300 : Shape := ⟨3, ![64, 256, 300]⟩
abbrev S64x512x1 : Shape := ⟨3, ![64, 512, 1]⟩
abbrev S64x256x1068 : Shape := ⟨3, ![64, 256, 1068]⟩
abbrev S4x512x1 : Shape := ⟨3, ![4, 512, 1]⟩
abbrev S4x512x768 : Shape := ⟨3, ![4, 512, 768]⟩
abbrev S4x256x300 : Shape := ⟨3, ![4, 256, 300]⟩
abbrev S4x256x1068 : Shape := ⟨3, ![4, 256, 1068]⟩
abbrev S4x512x256 : Shape := ⟨3, ![4, 512, 256]⟩
abbrev S4x256 : Shape := ⟨2, ![4, 256]⟩
abbrev S4x256x768 : Shape := ⟨3, ![4, 256, 768]⟩
abbrev S4x256x1 : Shape := ⟨3, ![4, 256, 1]⟩

abbrev nBuf : Space → Nat
  | .hbm => 29
  | .vmem => 8
  | .smem => 0
  | _ => 0

abbrev bufTy : (tb : Table) → Fin (tcTables nBuf tb) → BufTy
  | .hbm, ⟨0, _⟩ => ⟨S64x512x768, .f32⟩
  | .hbm, ⟨1, _⟩ => ⟨S50000x300, .f32⟩
  | .hbm, ⟨2, _⟩ => ⟨S64x512, .i32⟩
  | .hbm, ⟨3, _⟩ => ⟨S64x256, .i32⟩
  | .hbm, ⟨4, _⟩ => ⟨S_, .i32⟩
  | .hbm, ⟨5, _⟩ => ⟨S64x256, .i32⟩
  | .hbm, ⟨6, _⟩ => ⟨S64x256, .i1⟩
  | .hbm, ⟨7, _⟩ => ⟨S_, .i32⟩
  | .hbm, ⟨8, _⟩ => ⟨S64x256, .i32⟩
  | .hbm, ⟨9, _⟩ => ⟨S64x256, .i32⟩
  | .hbm, ⟨10, _⟩ => ⟨S64x256, .i32⟩
  | .hbm, ⟨11, _⟩ => ⟨S64x256x1, .i32⟩
  | .hbm, ⟨12, _⟩ => ⟨S1, .i32⟩
  | .hbm, ⟨13, _⟩ => ⟨S_, .i32⟩
  | .hbm, ⟨14, _⟩ => ⟨S64x256x1, .i32⟩
  | .hbm, ⟨15, _⟩ => ⟨S64x256x1, .i1⟩
  | .hbm, ⟨16, _⟩ => ⟨S1x1x1, .i32⟩
  | .hbm, ⟨17, _⟩ => ⟨S64x256x1, .i32⟩
  | .hbm, ⟨18, _⟩ => ⟨S64x256x1, .i1⟩
  | .hbm, ⟨19, _⟩ => ⟨S64x256x1, .i1⟩
  | .hbm, ⟨20, _⟩ => ⟨S_, .i1⟩
  | .hbm, ⟨21, _⟩ => ⟨S64x256, .i1⟩
  | .hbm, ⟨22, _⟩ => ⟨S64x256x300, .f32⟩
  | .hbm, ⟨23, _⟩ => ⟨S64x256x300, .i1⟩
  | .hbm, ⟨24, _⟩ => ⟨S_, .f32⟩
  | .hbm, ⟨25, _⟩ => ⟨S64x256x300, .f32⟩
  | .hbm, ⟨26, _⟩ => ⟨S64x256x300, .f32⟩
  | .hbm, ⟨27, _⟩ => ⟨S64x512x1, .i32⟩
  | .hbm, ⟨28, _⟩ => ⟨S64x256x1068, .f32⟩
  | .local _ .vmem, ⟨0, _⟩ => ⟨S4x512x1, .i32⟩
  | .local _ .vmem, ⟨1, _⟩ => ⟨S4x512x1, .i32⟩
  | .local _ .vmem, ⟨2, _⟩ => ⟨S4x512x768, .f32⟩
  | .local _ .vmem, ⟨3, _⟩ => ⟨S4x512x768, .f32⟩
  | .local _ .vmem, ⟨4, _⟩ => ⟨S4x256x300, .f32⟩
  | .local _ .vmem, ⟨5, _⟩ => ⟨S4x256x300, .f32⟩
  | .local _ .vmem, ⟨6, _⟩ => ⟨S4x256x1068, .f32⟩
  | .local _ .vmem, ⟨7, _⟩ => ⟨S4x256x1068, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1068 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S1_S1x1x1_2 : S1.BroadcastsInDim S1x1x1 (![2] : Fin 1 → Fin S1x1x1.rank)
  bcast_S1x1x1_S64x256x1_0_1_2 : S1x1x1.BroadcastsInDim S64x256x1 (![0, 1, 2] : Fin 3 → Fin S64x256x1.rank)
  reducesTo_S64x256x1_S64x256_d2 : S64x256x1.ReducesTo [2] S64x256
  h_S_ : 0 < S_.numel
  bcast_S64x256_S64x256x300_0_1 : S64x256.BroadcastsInDim S64x256x300 (![0, 1] : Fin 2 → Fin S64x256x300.rank)
  bcast_S_S64x256x300 : S_.BroadcastsInDim S64x256x300 (![] : Fin 0 → Fin S64x256x300.rank)
  bcast_S64x512_S64x512x1_0_1 : S64x512.BroadcastsInDim S64x512x1 (![0, 1] : Fin 2 → Fin S64x512x1.rank)
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  iota_S4x512x256_d2_w32 : S4x512x256.Iotas .tc 32 [2]
  broadcasts_S4x512x1_S4x512x256 : S4x512x1.Broadcasts S4x512x256
  natLt_1_32 : 1 < 32
  reduces_S4x512x256_S4x256 : S4x512x256.Reduces [1] S4x256
  bitsLt_bf16_f32 : FTy.bits .bf16 < FTy.bits .f32
  inb_S4x512x768_S4x512x768_0_0_0 : ∀ a, (![0, 0, 0] : Fin 3 → Nat) a + S4x512x768.size a ≤ S4x512x768.size a
  h_S4x512x768 : 0 < S4x512x768.numel
  shapeCasts_S4x256_S4x256x1 : S4x256.ShapeCasts S4x256x1
  broadcasts_S4x256x1_S4x256x768 : S4x256x1.Broadcasts S4x256x768
  inb_S4x256x1068_S4x256x768_0_0_0 : ∀ a, (![0, 0, 0] : Fin 3 → Nat) a + S4x256x768.size a ≤ S4x256x1068.size a
  h_S4x256x768 : 0 < S4x256x768.numel
  inb_S4x256x300_S4x256x300_0_0_0 : ∀ a, (![0, 0, 0] : Fin 3 → Nat) a + S4x256x300.size a ≤ S4x256x300.size a
  h_S4x256x300 : 0 < S4x256x300.numel
  shapeCasts_S4x256x300_S4x256x300 : S4x256x300.ShapeCasts S4x256x300
  inb_S4x256x1068_S4x256x300_0_0_768 : ∀ a, (![0, 0, 768] : Fin 3 → Nat) a + S4x256x300.size a ≤ S4x256x1068.size a
  gather_S50000x300_S64x256x1_S64x256x300_2_0_n_n_0_2_1300_wf : GatherDims.WF S50000x300 S64x256x1 S64x256x300 [2] [0] [] [0] [] 2 ![1, 300]
  dot_S4x512x256_S4x512x768_S4x256x768_1_1_2_2_0_0_wf : DotDims.WF S4x512x256 S4x512x768 S4x256x768 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1.size a ≤ S64x512x1.size a
  hwx0_0 : ∀ i : grid0.Coords, EltTy.bits .i32 = 32 ∨ (Rect.block (s := S64x512x1) S4x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x768.size a ≤ S64x512x768.size a
  hwx0_1 : ∀ i : grid0.Coords, EltTy.bits .f32 = 32 ∨ (Rect.block (s := S64x512x768) S4x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x300.size a ≤ S64x256x300.size a
  hwx0_2 : ∀ i : grid0.Coords, EltTy.bits .f32 = 32 ∨ (Rect.block (s := S64x256x300) S4x256x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1068.size a ≤ S64x256x1068.size a
  hwx0_3 : ∀ i : grid0.Coords, EltTy.bits .f32 = 32 ∨ (Rect.block (s := S64x256x1068) S4x256x1068.size (cc0_transform_3 i) (hinb0_3 i)).WholeWords (EltTy.packing .f32)

variable [Facts₀]

def gather_S50000x300_S64x256x1_S64x256x300_2_0_n_n_0_2_1300 : GatherDims S50000x300 S64x256x1 S64x256x300 where
  offsetDims := [2]
  collapsedSliceDims := [0]
  operandBatchingDims := []
  startIndicesBatchingDims := []
  startIndexMap := [0]
  indexVectorDim := 2
  sliceSizes := ![1, 300]
  wf := gather_S50000x300_S64x256x1_S64x256x300_2_0_n_n_0_2_1300_wf
def dot_S4x512x256_S4x512x768_S4x256x768_1_1_2_2_0_0 : DotDims S4x512x256 S4x512x768 S4x256x768 where
  lhsContracting := [1]
  rhsContracting := [1]
  lhsNonContracting := [2]
  rhsNonContracting := [2]
  lhsBatch := [0]
  rhsBatch := [0]
  wf := dot_S4x512x256_S4x512x768_S4x256x768_1_1_2_2_0_0_wf

abbrev win0_0 : Pipeline.Window sig grid0 :=
  Pipeline.Window.ofSpec (Memref.whole main_v1) S4x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x256x1068.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S50000x300 : Shape := ⟨2, ![50000, 300]⟩
abbrev S64x512 : Shape := ⟨2, ![64, 512]⟩
abbrev S64x256 : Shape := ⟨2, ![64, 256]⟩
abbrev S64 : Shape := ⟨1, ![64]⟩
abbrev S64x1 : Shape := ⟨2, ![64, 1]⟩
abbrev S_ : Shape := ⟨0, ![]⟩
abbrev S32768 : Shape := ⟨1, ![32768]⟩
abbrev S32768x768 : Shape := ⟨2, ![32768, 768]⟩
abbrev S16384x768 : Shape := ⟨2, ![16384, 768]⟩
abbrev S32768x1 : Shape := ⟨2, ![32768, 1]⟩
abbrev S64x256x768 : Shape := ⟨3, ![64, 256, 768]⟩
abbrev S16384 : Shape := ⟨1, ![16384]⟩
abbrev S64x256x1 : Shape := ⟨3, ![64, 256, 1]⟩
abbrev S64x256x300 : Shape := ⟨3, ![64, 256, 300]⟩
abbrev S64x256x1068 : Shape := ⟨3, ![64, 256, 1068]⟩

abbrev nBuf : Space → Nat
  | .hbm => 40
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S50000x300, .f32⟩
  | .hbm, ⟨2, _⟩ => ⟨S64x512, .i32⟩
  | .hbm, ⟨3, _⟩ => ⟨S64x256, .i32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S64x512, .i32⟩
  | .hbm, ⟨10, _⟩ => ⟨S64x512, .i32⟩
  | .hbm, ⟨11, _⟩ => ⟨S32768, .i32⟩
  | .hbm, ⟨12, _⟩ => ⟨S32768x768, .f32⟩
  | .hbm, ⟨13, _⟩ => ⟨S_, .f32⟩
  | .hbm, ⟨14, _⟩ => ⟨S16384x768, .f32⟩
  | .hbm, ⟨15, _⟩ => ⟨S32768x1, .i32⟩
  | .hbm, ⟨16, _⟩ => ⟨S16384x768, .f32⟩
  | .hbm, ⟨17, _⟩ => ⟨S64x256x768, .f32⟩
  | .hbm, ⟨18, _⟩ => ⟨S_, .f32⟩
  | .hbm, ⟨19, _⟩ => ⟨S32768, .f32⟩
  | .hbm, ⟨20, _⟩ => ⟨S_, .f32⟩
  | .hbm, ⟨21, _⟩ => ⟨S16384, .f32⟩
  | .hbm, ⟨22, _⟩ => ⟨S32768x1, .i32⟩
  | .hbm, ⟨23, _⟩ => ⟨S16384, .f32⟩
  | .hbm, ⟨24, _⟩ => ⟨S64x256x1, .f32⟩
  | .hbm, ⟨25, _⟩ => ⟨S_, .f32⟩
  | .hbm, ⟨26, _⟩ => ⟨S64x256x1, .f32⟩
  | .hbm, ⟨27, _⟩ => ⟨S64x256x1, .f32⟩
  | .hbm, ⟨28, _⟩ => ⟨S64x256x768, .f32⟩
  | .hbm, ⟨29, _⟩ => ⟨S64x256x768, .f32⟩
  | .hbm, ⟨30, _⟩ => ⟨S_, .i32⟩
  | .hbm, ⟨31, _⟩ => ⟨S64x256, .i32⟩
  | .hbm, ⟨32, _⟩ => ⟨S64x256, .i1⟩
  | .hbm, ⟨33, _⟩ => ⟨S_, .i32⟩
  | .hbm, ⟨34, _⟩ => ⟨S64x256, .i32⟩
  | .hbm, ⟨35, _⟩ => ⟨S64x256, .i32⟩
  | .hbm, ⟨36, _⟩ => ⟨S64x256, .i32⟩
  | .hbm, ⟨37, _⟩ => ⟨S64x256x1, .i32⟩
  | .hbm, ⟨38, _⟩ => ⟨S64x256x300, .f32⟩
  | .hbm, ⟨39, _⟩ => ⟨S64x256x1068, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  shapeCasts_S64x512_S32768 : S64x512.ShapeCasts S32768
  shapeCasts_S64x512x768_S32768x768 : S64x512x768.ShapeCasts S32768x768
  bcast_S_S16384x768 : S_.BroadcastsInDim S16384x768 (![] : Fin 0 → Fin S16384x768.rank)
  bcast_S32768_S32768x1_0 : S32768.BroadcastsInDim S32768x1 (![0] : Fin 1 → Fin S32768x1.rank)
  shapeCasts_S16384x768_S64x256x768 : S16384x768.ShapeCasts S64x256x768
  bcast_S_S32768 : S_.BroadcastsInDim S32768 (![] : Fin 0 → Fin S32768.rank)
  bcast_S_S16384 : S_.BroadcastsInDim S16384 (![] : Fin 0 → Fin S16384.rank)
  shapeCasts_S16384_S64x256x1 : S16384.ShapeCasts S64x256x1
  bcast_S_S64x256x1 : S_.BroadcastsInDim S64x256x1 (![] : Fin 0 → Fin S64x256x1.rank)
  bcast_S64x256x1_S64x256x768_0_1_2 : S64x256x1.BroadcastsInDim S64x256x768 (![0, 1, 2] : Fin 3 → Fin S64x256x768.rank)
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  concatenates_S64x256x768_S64x256x300_S64x256x1068_d2 : Shape.Concatenates [S64x256x768, S64x256x300] S64x256x1068 2
  scatter_S16384x768_S32768x1_S32768x768_1_0_0_1_wf : ScatterDims.WF S16384x768 S32768x1 S32768x768 [1] [0] [0] 1
  scatter_S16384_S32768x1_S32768_n_0_0_1_wf : ScatterDims.WF S16384 S32768x1 S32768 [] [0] [0] 1
  gather_S50000x300_S64x256x1_S64x256x300_2_0_n_n_0_2_1300_wf : GatherDims.WF S50000x300 S64x256x1 S64x256x300 [2] [0] [] [0] [] 2 ![1, 300]

variable [Facts₀]

def scatter_S16384x768_S32768x1_S32768x768_1_0_0_1 : ScatterDims S16384x768 S32768x1 S32768x768 where
  updateWindowDims := [1]
  insertedWindowDims := [0]
  scatterDimsToOperandDims := [0]
  indexVectorDim := 1
  wf := scatter_S16384x768_S32768x1_S32768x768_1_0_0_1_wf
def scatter_S16384_S32768x1_S32768_n_0_0_1 : ScatterDims S16384 S32768x1 S32768 where
  updateWindowDims := []
  insertedWindowDims := [0]
  scatterDimsToOperandDims := [0]
  indexVectorDim := 1
  wf := scatter_S16384_S32768x1_S32768_n_0_0_1_wf
def gather_S50000x300_S64x256x1_S64x256x300_2_0_n_n_0_2_1300 : GatherDims S50000x300 S64x256x1 S64x256x300 where
  offsetDims := [2]
  collapsedSliceDims := [0]
  operandBatchingDims := []
  startIndicesBatchingDims := []
  startIndexMap := [0]
  indexVectorDim := 2
  sliceSizes := ![1, 300]
  wf := gather_S50000x300_S64x256x1_S64x256x300_2_0_n_n_0_2_1300_wf

class Facts : Prop extends Facts₀ where

variable [Facts]
-- ==== Proof.Spec.lean ====
/-
  The mathematics of the certificate, with no program in sight.

  A batch of 64 sentences, each of 512 subword tokens with a 768-wide hidden vector; every token carries the
  index (0 … 255) of the word it belongs to. The result, per sentence `b` and word `w`, is a row of 1068 numbers:
  first the MEAN of the hidden vectors of the tokens of word `w` (the sum over the tokens `s` whose word index is
  `w`, divided by the number of such tokens, that number replaced by 1 when it is 0), then the 300 numbers of the
  word's embedding row. Both programs compute exactly this; they differ in how the sum over the members of a
  word is arranged (a product with a 0/1 matrix, against a scatter that adds every token at its word).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The hidden states: 64 sentences × 512 tokens × 768 features. -/
abbrev SHid : Shape := ⟨3, ![64, 512, 768]⟩
/-- The word index of every token: 64 × 512. -/
abbrev STok : Shape := ⟨2, ![64, 512]⟩
/-- The gathered word embeddings: 64 × 256 × 300. -/
abbrev SEmb : Shape := ⟨3, ![64, 256, 300]⟩
/-- The result: 64 × 256 × (768 + 300). -/
abbrev SOut : Shape := ⟨3, ![64, 256, 1068]⟩

/-- The float word of 1.0 — the floor under the member count; both programs carry this same word. -/
abbrev oneWord : EReal := Ideal.ofBits .f32 0x3F800000#32

/-- Token `s` of sentence `b` belongs to word `w`. -/
abbrev isMember (tok : IVec STok 32) (b : Fin 64) (w : Fin 256) (s : Fin 512) : Prop :=
  tok (ix2 b s) = BitVec.ofNat 32 w.val

/-- The sum of feature `h` over the tokens of word `w` of sentence `b`. -/
def memberSum (hid : SHid.Idx → EReal) (tok : IVec STok 32) (b : Fin 64) (w : Fin 256) (h : Fin 768) : EReal :=
  ∑ s : Fin 512, if isMember tok b w s then hid (ix3 b s h) else 0

/-- The number of tokens of word `w` of sentence `b`. -/
def memberCount (tok : IVec STok 32) (b : Fin 64) (w : Fin 256) : EReal :=
  ∑ s : Fin 512, if isMember tok b w s then (1 : EReal) else 0

/-- The mean of feature `h` over the tokens of word `w`: the sum over the count, the count floored at one. -/
def pooled (hid : SHid.Idx → EReal) (tok : IVec STok 32) (b : Fin 64) (w : Fin 256) (h : Fin 768) : EReal :=
  Ideal.div (memberSum hid tok b w h) (max (memberCount tok b w) oneWord)

/-- The whole result: per sentence and word the 768 pooled means, then the 300 embedding entries. -/
def result (hid : SHid.Idx → EReal) (tok : IVec STok 32) (emb : SEmb.Idx → EReal) : SOut.Idx → EReal := fun i =>
  if h : (i 2).val < 768 then pooled hid tok (i 0) (i 1) ⟨(i 2).val, h⟩
  else emb (ix3 (i 0) (i 1) ⟨(i 2).val - 768, by have := (i 2).isLt; show (i 2).val - 768 < 300; change (i 2).val < 1068 at this; omega⟩)

theorem result_lo (hid : SHid.Idx → EReal) (tok : IVec STok 32) (emb : SEmb.Idx → EReal) (b : Fin 64) (w : Fin 256)
    (j : Fin 1068) (h : j.val < 768) : result hid tok emb (ix3 b w j) = pooled hid tok b w ⟨j.val, h⟩ := by
  unfold result; exact dif_pos h

theorem result_hi (hid : SHid.Idx → EReal) (tok : IVec STok 32) (emb : SEmb.Idx → EReal) (b : Fin 64) (w : Fin 256)
    (j : Fin 1068) (h : ¬ j.val < 768) (k : Fin 300) (hk : k.val = j.val - 768) :
    result hid tok emb (ix3 b w j) = emb (ix3 b w k) := by
  unfold result; rw [dif_neg h]; congr 1; funext d
  match d with
  | ⟨0, _⟩ => rfl
  | ⟨1, _⟩ => rfl
  | ⟨2, _⟩ => exact Fin.ext hk.symm

/-! ## The one algebraic law: a 0/1-weighted sum, taken twice over a value and its (zero) remainder

The kernel forms the member sum as a product with the 0/1 membership matrix, and does it twice: once over the
hidden values and once over the remainder `x - x` that its two-pass splitting leaves over the reals. For finite
`x` that remainder is zero, a zero weight annihilates every extended real, and a unit weight leaves it alone. -/

theorem sub_self_of_real {x : EReal} (hx : ∃ r : ℝ, x = (r : EReal)) : x - x = 0 := by
  obtain ⟨r, rfl⟩ := hx
  rw [← EReal.coe_sub, sub_self, EReal.coe_zero]

/-- A membership weight, as the extended real 1 or 0. -/
def weight (p : Prop) [Decidable p] : EReal := if p then 1 else 0

theorem weight_mul (p : Prop) [Decidable p] (x : EReal) : weight p * x = if p then x else 0 := by
  unfold weight; split_ifs <;> simp

/-- The two weighted passes add up to the plain sum over the members, when every value is a real number. -/
theorem two_pass {n : Nat} (p : Fin n → Prop) [DecidablePred p] (x : Fin n → EReal)
    (hx : ∀ s, ∃ r : ℝ, x s = (r : EReal)) :
    (∑ s : Fin n, weight (p s) * x s) + (∑ s : Fin n, weight (p s) * (x s - x s))
      = ∑ s : Fin n, if p s then x s else 0 := by
  have h2 : ∑ s : Fin n, weight (p s) * (x s - x s) = 0 := by
    apply Finset.sum_eq_zero; intro s _
    rw [sub_self_of_real (hx s), mul_zero]
  rw [h2, add_zero]
  exact Finset.sum_congr rfl fun s _ => weight_mul _ _

/-- The count of members as a sum of weights. -/
theorem count_weights (tok : IVec STok 32) (b : Fin 64) (w : Fin 256) :
    ∑ s : Fin 512, weight (isMember tok b w s) = memberCount tok b w := rfl

/-- The flat segment key the reference gives token `s` of sentence `b'`: 256·b' plus the token's word index,
    in 32-bit words (the reference scatters every token into one array of 64·256 segments). -/
def flatKey (tok : IVec STok 32) (b' : Fin 64) (s : Fin 512) : BitVec 32 :=
  IntOp.addi (IntOp.muli (BitVec.ofNat 32 b'.val) 256#32) (tok (ix2 b' s))

end Cert.Spec

end
-- ==== Proof.Payload.lean ====
/-
  The kernel body's arithmetic read at one index of its block: entry (r, w, h) of the 768-wide part is the
  quotient of the two weighted passes over the 512 tokens of sentence r by the floored weight total; the
  300-wide part is the embedding block itself.
-/
import proofs.«406176_j45311904973549_3_alg».proof.Proof.Gen.KernelIdeal.Skeleton
import proofs.«406176_j45311904973549_3_alg».proof.Proof.Spec
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.Payload

open Idealize.ShloMosaic Idealize.ShloMosaic.ValueIdx Cert.KernelIdeal Cert.KernelIdeal.Gen

variable [Cert.KernelIdeal.Facts]

/-! ## The membership weight at one entry -/

/-- A widened one-bit word read as a signed integer and then as an extended real is the weight of the bit. -/
private theorem bit_weight (c : BitVec 1) (p : Prop) [Decidable p] (hp : c = 1#1 ↔ p) :
    FloatOps.sitofp (F := Ideal) .f32 (c.setWidth 32) = Cert.Spec.weight p := by
  rcases BitVec.eq_zero_or_eq_one c with h | h
  · subst h
    have hn : ¬ p := fun hh => absurd (hp.mpr hh) (by decide)
    unfold Cert.Spec.weight
    rw [if_neg hn]
    show (((BitVec.setWidth 32 (0#1)).toInt : ℝ) : EReal) = 0
    have : (BitVec.setWidth 32 (0#1)).toInt = 0 := by decide
    rw [this]; simp
  · subst h
    have hy : p := hp.mp rfl
    unfold Cert.Spec.weight
    rw [if_pos hy]
    show (((BitVec.setWidth 32 (1#1)).toInt : ℝ) : EReal) = 1
    have : (BitVec.setWidth 32 (1#1)).toInt = 1 := by decide
    rw [this]; simp

/-- Entry (r, s, w) of the 0/1 membership matrix: the token's word index compared with the lane number w. -/
private theorem onehot_apply (x0 : IVec S4x512x1 32) (hsc : S4x512x1.ShapeCasts S4x512x1)
    (hb : S4x512x1.Broadcasts S4x512x256) (hi : S4x512x256.Iotas .tc 32 [2]) (hlt : 1 < 32)
    (r : Fin 4) (s : Fin 512) (w : Fin 256) :
    (sitofp (F := Ideal) .f32
        (extui 32 (cmpi .eq (broadcastTo S4x512x256 (shapeCast S4x512x1 x0 hsc) hb) (iota .tc S4x512x256 32 [2] hi)) hlt))
      (ix3 r s w)
      = Cert.Spec.weight (x0 (ix3 r s 0) = BitVec.ofNat 32 w.val) := by
  have e1 : broadcastTo S4x512x256 (shapeCast S4x512x1 x0 hsc) hb (ix3 r s w) = x0 (ix3 r s 0) := by
    rw [shapeCast_self]
    exact broadcastTo_apply x0 hb (ix3 r s w) (ix3 r s 0) (fun a => by
      match a with
      | ⟨0, _⟩ => rfl
      | ⟨1, _⟩ => rfl
      | ⟨2, _⟩ => rfl)
  have e2 : iota .tc S4x512x256 32 [2] hi (ix3 r s w) = BitVec.ofNat 32 w.val :=
    iota_single_apply .tc S4x512x256 32 2 hi (ix3 r s w)
  refine (sitofp_apply _ _).trans ?_
  refine bit_weight _ _ ?_
  show IntOp.cmpi .eq (broadcastTo S4x512x256 (shapeCast S4x512x1 x0 hsc) hb (ix3 r s w))
      (iota .tc S4x512x256 32 [2] hi (ix3 r s w)) = 1#1 ↔ _
  rw [e1, e2]
  exact Idealize.ShloMosaic.StableHlo.Predicate.cmpi_eq_iff

/-! ## The sum over the tokens of one sentence -/

/-- The lane sum along the token axis, at (r, w), is the sum over the 512 tokens of sentence r. -/
private theorem tokenSum_apply (v : FVec Ideal S4x512x256 .f32) (hr : S4x512x256.Reduces [1] S4x256)
    (hφ : FKind.Formats .f32) (hacc : (0x00000000#32 : BitVec 32) = FKind.add.neutral .f32 hφ)
    (r : Fin 4) (w : Fin 256) :
    multiReduction (F := Ideal) .add [1] S4x256 v 0x00000000#32 hr hφ hacc (ix2 r w) = ∑ s : Fin 512, v (ix3 r s w) := by
  refine (Ideal.multiReduction_add_single v 0x00000000#32 hr hφ hacc (ix2 r w)).trans ?_
  show ∑ s : Fin 512, v (hr.lift (ix2 r w) s) = ∑ s : Fin 512, v (ix3 r s w)
  refine Finset.sum_congr rfl fun s _ => congrArg v (funext fun a => Fin.ext ?_)
  match a with
  | ⟨0, _⟩ => rfl
  | ⟨1, _⟩ => rfl
  | ⟨2, _⟩ => rfl

/-! ## The product with the membership matrix: contraction over the token axis

The product's dimension numbers: the sentence axis 0 is shared, the token axis 1 of both operands is contracted, and
the lane axis 2 of each operand is free. So at the result index (r, w, h) and token s the left operand is read at
(r, s, w) and the right at (r, s, h): one coordinate fact per operand axis. -/

private theorem lhs_ax0 (i : S4x256x768.Idx) (q : dot_S4x512x256_S4x512x768_S4x256x768_1_1_2_2_0_0.contr.Idx) :
    (dot_S4x512x256_S4x512x768_S4x256x768_1_1_2_2_0_0.lhsIdx i q 0).val = (i 0).val := by
  unfold DotDims.lhsIdx
  rw [dif_pos (show (0 : Fin S4x512x256.rank) ∈ dot_S4x512x256_S4x512x768_S4x256x768_1_1_2_2_0_0.lhsBatch by decide)]
  rfl

private theorem lhs_ax1 (i : S4x256x768.Idx) (q : dot_S4x512x256_S4x512x768_S4x256x768_1_1_2_2_0_0.contr.Idx) :
    (dot_S4x512x256_S4x512x768_S4x256x768_1_1_2_2_0_0.lhsIdx i q 1).val = (q ⟨0, by decide⟩).val :=
  dot_S4x512x256_S4x512x768_S4x256x768_1_1_2_2_0_0.lhsIdx_val_of_single rfl i q

private theorem lhs_ax2 (i : S4x256x768.Idx) (q : dot_S4x512x256_S4x512x768_S4x256x768_1_1_2_2_0_0.contr.Idx) :
    (dot_S4x512x256_S4x512x768_S4x256x768_1_1_2_2_0_0.lhsIdx i q 2).val = (i 1).val := by
  unfold DotDims.lhsIdx
  rw [dif_neg (show ¬(2 : Fin S4x512x256.rank) ∈ dot_S4x512x256_S4x512x768_S4x256x768_1_1_2_2_0_0.lhsBatch by decide),
    dif_pos (show (2 : Fin S4x512x256.rank) ∈ dot_S4x512x256_S4x512x768_S4x256x768_1_1_2_2_0_0.lhsNonContracting by decide)]
  rfl

private theorem rhs_ax0 (i : S4x256x768.Idx) (q : dot_S4x512x256_S4x512x768_S4x256x768_1_1_2_2_0_0.contr.Idx) :
    (dot_S4x512x256_S4x512x768_S4x256x768_1_1_2_2_0_0.rhsIdx i q 0).val = (i 0).val := by
  unfold DotDims.rhsIdx
  rw [dif_pos (show (0 : Fin S4x512x768.rank) ∈ dot_S4x512x256_S4x512x768_S4x256x768_1_1_2_2_0_0.rhsBatch by decide)]
  rfl

private theorem rhs_ax1 (i : S4x256x768.Idx) (q : dot_S4x512x256_S4x512x768_S4x256x768_1_1_2_2_0_0.contr.Idx) :
    (dot_S4x512x256_S4x512x768_S4x256x768_1_1_2_2_0_0.rhsIdx i q 1).val = (q ⟨0, by decide⟩).val :=
  dot_S4x512x256_S4x512x768_S4x256x768_1_1_2_2_0_0.rhsIdx_val_of_single rfl i q

private theorem rhs_ax2 (i : S4x256x768.Idx) (q : dot_S4x512x256_S4x512x768_S4x256x768_1_1_2_2_0_0.contr.Idx) :
    (dot_S4x512x256_S4x512x768_S4x256x768_1_1_2_2_0_0.rhsIdx i q 2).val = (i 2).val := by
  unfold DotDims.rhsIdx
  rw [dif_neg (show ¬(2 : Fin S4x512x768.rank) ∈ dot_S4x512x256_S4x512x768_S4x256x768_1_1_2_2_0_0.rhsBatch by decide),
    dif_pos (show (2 : Fin S4x512x768.rank) ∈ dot_S4x512x256_S4x512x768_S4x256x768_1_1_2_2_0_0.rhsNonContracting by decide)]
  rfl

/-- The product into a zero accumulator, at (r, w, h): the sum over the tokens s of sentence r of the left entry
    (r, s, w) times the right entry (r, s, h). -/
private theorem tokenProduct_apply (a : FVec Ideal S4x512x256 .bf16) (b : FVec Ideal S4x512x768 .bf16)
    (r : Fin 4) (w : Fin 256) (h : Fin 768) :
    matmul dot_S4x512x256_S4x512x768_S4x256x768_1_1_2_2_0_0 none a b (constant (F := Ideal) S4x256x768 .f32 0x00000000#32) (ix3 r w h)
      = ∑ s : Fin 512, a (ix3 r s w) * b (ix3 r s h) := by
  show FloatOps.matmul dot_S4x512x256_S4x512x768_S4x256x768_1_1_2_2_0_0 none a b
      (constant (F := Ideal) S4x256x768 .f32 0x00000000#32) (ix3 r w h) = _
  rw [Ideal.matmul_constant_zero_apply,
    ← Equiv.sum_comp (contrEquiv1 dot_S4x512x256_S4x512x768_S4x256x768_1_1_2_2_0_0 512 rfl rfl).symm]
  refine Finset.sum_congr rfl fun s _ => ?_
  have hs := contrEquiv1_symm_val dot_S4x512x256_S4x512x768_S4x256x768_1_1_2_2_0_0 512 rfl rfl s
  have el : dot_S4x512x256_S4x512x768_S4x256x768_1_1_2_2_0_0.lhsIdx (ix3 r w h)
      ((contrEquiv1 dot_S4x512x256_S4x512x768_S4x256x768_1_1_2_2_0_0 512 rfl rfl).symm s) = ix3 r s w :=
    funext fun ax => Fin.ext (by
      match ax with
      | ⟨0, _⟩ => exact lhs_ax0 _ _
      | ⟨1, _⟩ => exact (lhs_ax1 _ _).trans hs
      | ⟨2, _⟩ => exact lhs_ax2 _ _)
  have er : dot_S4x512x256_S4x512x768_S4x256x768_1_1_2_2_0_0.rhsIdx (ix3 r w h)
      ((contrEquiv1 dot_S4x512x256_S4x512x768_S4x256x768_1_1_2_2_0_0 512 rfl rfl).symm s) = ix3 r s h :=
    funext fun ax => Fin.ext (by
      match ax with
      | ⟨0, _⟩ => exact rhs_ax0 _ _
      | ⟨1, _⟩ => exact (rhs_ax1 _ _).trans hs
      | ⟨2, _⟩ => exact rhs_ax2 _ _)
  rw [el, er]

/-! ## The count as a column: a new unit axis, then the same value along the feature axis -/

private theorem column_apply {α : Type} (V : S4x256.Idx → α) (hsc : S4x256.ShapeCasts S4x256x1)
    (hb : S4x256x1.Broadcasts S4x256x768) (r : Fin 4) (w : Fin 256) (h : Fin 768) :
    broadcastTo S4x256x768 (shapeCast S4x256x1 V hsc) hb (ix3 r w h) = V (ix2 r w) := by
  refine (broadcastTo_apply (shapeCast S4x256x1 V hsc) hb (ix3 r w h) (ix3 r w (0 : Fin 1)) (fun a => by
    match a with
    | ⟨0, _⟩ => rfl
    | ⟨1, _⟩ => rfl
    | ⟨2, _⟩ => rfl)).trans ?_
  refine shapeCast_apply V hsc (ix3 r w (0 : Fin 1)) (ix2 r w) ?_
  rw [Shape.rowMajor_val_two, Shape.rowMajor_val_three]
  show r.val * 256 + w.val = (r.val * 256 + w.val) * 1 + 0
  omega

/-- One weighted pass: both operands narrowed to bf16 (the identity on extended reals) and multiplied into a zero
    accumulator; at (r, w, h) the sum over the tokens of sentence r. -/
private theorem pass_apply (m : FVec Ideal S4x512x256 .f32) (y : FVec Ideal S4x512x768 .f32)
    (hlt : FTy.bits .bf16 < FTy.bits .f32) (r : Fin 4) (w : Fin 256) (h : Fin 768) :
    matmul dot_S4x512x256_S4x512x768_S4x256x768_1_1_2_2_0_0 none (truncf .bf16 m hlt) (truncf .bf16 y hlt)
        (constant (F := Ideal) S4x256x768 .f32 0x00000000#32) (ix3 r w h)
      = ∑ s : Fin 512, m (ix3 r s w) * y (ix3 r s h) :=
  tokenProduct_apply (truncf .bf16 m hlt) (truncf .bf16 y hlt) r w h

theorem pay1_apply (x0 : Vec Ideal S4x512x1 .i32) (x1 : Vec Ideal S4x512x768 .f32) (r : Fin 4) (w : Fin 256) (h : Fin 768) :
    k0_pay1 (F := Ideal) x0 x1 (ix3 r w h)
      = Ideal.div
          ((∑ s : Fin 512, Cert.Spec.weight (x0 (ix3 r s 0) = BitVec.ofNat 32 w.val) * x1 (ix3 r s h))
            + (∑ s : Fin 512, Cert.Spec.weight (x0 (ix3 r s 0) = BitVec.ofNat 32 w.val) * (x1 (ix3 r s h) - x1 (ix3 r s h))))
          (max (∑ s : Fin 512, Cert.Spec.weight (x0 (ix3 r s 0) = BitVec.ofNat 32 w.val)) Cert.Spec.oneWord) := by
  unfold k0_pay1
  refine (divf_apply _ _ _).trans ?_
  refine congrArg₂ Ideal.div ?_ ?_
  · -- the two weighted passes
    refine (addf_apply _ _ _).trans ?_
    refine congrArg₂ (· + ·) ?_ ?_
    · refine (pass_apply _ _ _ r w h).trans ?_
      refine Finset.sum_congr rfl fun s _ => ?_
      rw [onehot_apply]
    · refine (pass_apply _ _ _ r w h).trans ?_
      refine Finset.sum_congr rfl fun s _ => ?_
      rw [onehot_apply]
      rfl
  · -- the floored weight total
    refine (column_apply _ _ _ r w h).trans ?_
    refine (maximumf_apply _ _ _).trans ?_
    refine congrArg₂ max ?_ rfl
    refine (tokenSum_apply _ _ _ _ r w).trans ?_
    exact Finset.sum_congr rfl fun s _ => onehot_apply x0 _ _ _ _ r s w

theorem pay2_eq (x2 : Vec Ideal S4x256x300 .f32) : k0_pay2 (F := Ideal) x2 = x2 := by
  unfold k0_pay2
  exact shapeCast_self x2 _

end Cert.Payload

end
-- ==== Proof.KernelBlock.lean ====
/-
  What one grid point of the kernel leaves in its output block, as ONE function of the block index: the body
  stores two pieces side by side — columns 0 … 767 the pooled quotient of the point's four sentences, columns
  768 … 1067 the embedding block — and together they tile the [4 × 256 × 1068] block.
-/
import proofs.«406176_j45311904973549_3_alg».proof.Proof.Gen.KernelIdeal.Value
import proofs.«406176_j45311904973549_3_alg».proof.Proof.Spec
import proofs.«406176_j45311904973549_3_alg».proof.Proof.Payload
import Idealize.ShloMosaic.Lib.Pipeline.Value

set_option maxRecDepth 16384

noncomputable section

namespace Cert.KernelBlock

open Cert.KernelIdeal Cert.KernelIdeal.Gen Idealize.ShloMosaic Idealize.ShloMosaic.TcCoe Idealize.ShloMosaic.Tactic
open Idealize.SL.Sem Idealize.ShloMosaic.ValueIdx

/-- The block a point leaves: the quotient payload on the first 768 columns, the embedding block after them. -/
def blockFn (x0 : Vec Ideal S4x512x1 .i32) (x1 : Vec Ideal S4x512x768 .f32) (x2 : Vec Ideal S4x256x300 .f32) :
    S4x256x1068.Idx → EReal := fun y =>
  if h : (y 2).val < 768 then k0_pay1 (F := Ideal) x0 x1 (ix3 (y 0) (y 1) ⟨(y 2).val, h⟩)
  else x2 (ix3 (y 0) (y 1) ⟨(y 2).val - 768, by have := (y 2).isLt; show (y 2).val - 768 < 300; change (y 2).val < 1068 at this; omega⟩)

theorem hz3 : (![0, 0, 0] : Fin 3 → Nat) = fun _ => 0 := funext fun a => by fin_cases a <;> rfl

/-- The two stored pieces are the two column ranges of `blockFn`. -/
theorem out_eq (c : Dev nD) (i : grid0.Coords) (arg1 : Memref sig .tc .vmem S4x512x1 .i32) (harg1 : arg1.IsWhole) (arg2 : Memref sig .tc .vmem S4x512x768 .f32) (harg2 : arg2.IsWhole) (arg3 : Memref sig .tc .vmem S4x256x300 .f32) (harg3 : arg3.IsWhole) (arg4 : Memref sig .tc .vmem S4x256x1068 .f32) (harg4 : arg4.IsWhole)
    (x0 : Vec Ideal S4x512x1 .i32) (x1 : Vec Ideal S4x512x768 .f32) (x2 : Vec Ideal S4x256x300 .f32) :
    out0_A_3 (F := Ideal) c i arg1 harg1 arg2 harg2 arg3 harg3 arg4 harg4 x0 x1 x2 = blockFn x0 x1 x2 := by
  unfold out0_A_3
  rw [View.read_writes_eq_canon _ _ _ (cover0_A_3 c i arg1 harg1 arg2 harg2 arg3 harg3 arg4 harg4 x0 x1 x2)]
  funext y
  refine View.canon_apply_of_pieces (blockFn x0 x1 x2) _ ?_ y (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S4x512x1) hz3, View.ld_unit_zero (S := S4x512x768) hz3, View.ld_unit_zero (S := S4x256x300) hz3]
  intro p hp x
  rcases List.mem_cons.mp hp with rfl | hp
  · -- the embedding piece: columns 768 … 1067
    have hv2 : ((Rect.unit (s := S4x256x1068) ![0, 0, 768] ![4, 256, 300] inb_S4x256x1068_S4x256x300_0_0_768).emb x 2).val = 768 + 1 * (x 2).val := Rect.emb_apply _ x 2
    have hv0 : ((Rect.unit (s := S4x256x1068) ![0, 0, 768] ![4, 256, 300] inb_S4x256x1068_S4x256x300_0_0_768).emb x 0).val = 0 + 1 * (x 0).val := Rect.emb_apply _ x 0
    have hv1 : ((Rect.unit (s := S4x256x1068) ![0, 0, 768] ![4, 256, 300] inb_S4x256x1068_S4x256x300_0_0_768).emb x 1).val = 0 + 1 * (x 1).val := Rect.emb_apply _ x 1
    show k0_pay2 (F := Ideal) x2 x = _
    rw [Cert.Payload.pay2_eq]
    unfold blockFn
    rw [dif_neg (by rw [hv2]; omega)]
    congr 1; funext d
    match d with
    | ⟨0, _⟩ => exact Fin.ext (by show (x 0).val = _; rw [hv0]; omega)
    | ⟨1, _⟩ => exact Fin.ext (by show (x 1).val = _; rw [hv1]; omega)
    | ⟨2, _⟩ => exact Fin.ext (by show (x 2).val = _ - 768; rw [hv2]; omega)
  · rcases List.mem_singleton.mp hp with rfl
    -- the pooled piece: columns 0 … 767
    have hv2 : ((Rect.unit (s := S4x256x1068) ![0, 0, 0] ![4, 256, 768] inb_S4x256x1068_S4x256x768_0_0_0).emb x 2).val = 0 + 1 * (x 2).val := Rect.emb_apply _ x 2
    have hv0 : ((Rect.unit (s := S4x256x1068) ![0, 0, 0] ![4, 256, 768] inb_S4x256x1068_S4x256x768_0_0_0).emb x 0).val = 0 + 1 * (x 0).val := Rect.emb_apply _ x 0
    have hv1 : ((Rect.unit (s := S4x256x1068) ![0, 0, 0] ![4, 256, 768] inb_S4x256x1068_S4x256x768_0_0_0).emb x 1).val = 0 + 1 * (x 1).val := Rect.emb_apply _ x 1
    have hx2 : (x 2).val < 768 := (x 2).isLt
    show k0_pay1 (F := Ideal) x0 x1 x = _
    unfold blockFn
    rw [dif_pos (by rw [hv2]; omega)]
    congr 1; funext d
    match d with
    | ⟨0, _⟩ => exact Fin.ext (by show (x 0).val = _; rw [hv0]; omega)
    | ⟨1, _⟩ => exact Fin.ext (by show (x 1).val = _; rw [hv1]; omega)
    | ⟨2, _⟩ => exact Fin.ext (by show (x 2).val = _; rw [hv2]; omega)

end Cert.KernelBlock

end
-- ==== Proof.Take.lean ====
/-
  The embedding lookup. The kernel's program takes the table rows with a range guard: a word id is first wrapped
  (a negative id counts from the table's end), the row is gathered, and where the wrapped id falls outside
  0 … 49999 the row is replaced by a fill value. The reference gathers at the same wrapped id with no guard. When
  every word id lies in 0 … 49999 the guard holds everywhere and the two are the same array.
-/
import proofs.«406176_j45311904973549_3_alg».proof.KernelIdeal
import proofs.«406176_j45311904973549_3_alg».proof.Proof.Gen.ReferenceIdeal.Read
import Idealize.ShloMosaic.PureOps.Ideal
import Idealize.ShloMosaic.Lib.ReduceAll
import Idealize.ShloMosaic.Lib.StableHlo.Predicate
import Idealize.ShloMosaic.Lib.ValueIdx

noncomputable section

namespace Cert.Take

open Idealize.ShloMosaic Idealize.ShloMosaic.ValueIdx Cert.KernelIdeal

variable [Cert.KernelIdeal.Facts] [Cert.ReferenceIdeal.Facts]
open Cert.KernelIdeal.Facts₀

/-- A word id wrapped into the table: a negative id has the table's length added. -/
def wrapped (wid : IVec S64x256 32) : IVec S64x256 32 :=
  select (cmpi .slt wid (broadcastInDim S64x256 ![] bcast_S_S64x256 (constantI S_ 32 0#32)))
    (addi wid (broadcastInDim S64x256 ![] bcast_S_S64x256 (constantI S_ 32 50000#32))) wid

/-- The wrapped ids as the gather's column of start indices. -/
def startIdx (wid : IVec S64x256 32) : IVec S64x256x1 32 :=
  broadcastInDim S64x256x1 ![0, 1] bcast_S64x256_S64x256x1_0_1 (wrapped wid)

/-- The guard: the wrapped id lies in 0 … 49999. -/
def inRange (wid : IVec S64x256 32) : IVec S64x256 1 :=
  (fun x v => Host.reduce IntOp.andi x v reducesTo_S64x256x1_S64x256_d2 h_S_)
    (andi (cmpi .sge (startIdx wid) (broadcastInDim S64x256x1 ![] bcast_S_S64x256x1 (constantI S_ 32 0#32)))
      (cmpi .sle (startIdx wid) (broadcastInDim S64x256x1 ![0, 1, 2] bcast_S1x1x1_S64x256x1_0_1_2
        (broadcastInDim S1x1x1 ![2] bcast_S1_S1x1x1_2 (constantI S1 32 49999#32)))))
    (constantI S_ 1 1#1)

/-- The guarded lookup the kernel's program makes before its region. -/
def taken (tab : FVec Ideal S50000x300 .f32) (wid : IVec S64x256 32) : FVec Ideal S64x256x300 .f32 :=
  select (broadcastInDim S64x256x300 ![0, 1] bcast_S64x256_S64x256x300_0_1 (inRange wid))
    (Host.gather gather_S50000x300_S64x256x1_S64x256x300_2_0_n_n_0_2_1300 tab (startIdx wid))
    (broadcastInDim S64x256x300 ![] bcast_S_S64x256x300 (constant (F := Ideal) S_ .f32 0x7FC00000#32))

/-- A left fold by "and" over one-bit words that starts at 1 and meets only 1s comes out 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_one f l _ (IntOp.andi_eq_one.2 ⟨h, hl a (List.mem_cons_self ..)⟩)
      (fun n hn => hl n (List.mem_cons_of_mem _ hn))

/-- A reduction by "and" from the initial value 1 of an array whose every entry is 1 is 1 at every index. -/
private theorem reduce_andi_one {s t u : Shape} {axes : List (Fin s.rank)} (x : s.Idx → BitVec 1)
    (init : u.Idx → BitVec 1) (h : s.ReducesTo axes t) (hu : 0 < u.numel) (j : t.Idx)
    (hinit : ∀ k, init k = 1#1) (hx : ∀ i, x i = 1#1) : Host.reduce IntOp.andi x init h hu j = 1#1 := by
  rw [Host.reduce_eq_foldl]
  exact foldl_andi_one x _ _ (hinit _) (fun n _ => hx n)

/-- A word id that is not negative is left as it is by the wrap. -/
private theorem wrapped_eq (wid : IVec S64x256 32) (hwid : ∀ i, 0 ≤ (wid i).toInt ∧ (wid i).toInt < 50000) :
    wrapped wid = wid := by
  funext k
  show Scalar.select (IntOp.cmpi .slt (wid k) 0#32) (IntOp.addi (wid k) 50000#32) (wid k) = wid k
  have hn : ¬ IntOp.cmpi .slt (wid k) 0#32 = 1#1 := by
    rw [IntOp.cmpi_slt, show (0#32 : BitVec 32).toInt = 0 from by decide]
    have := (hwid k).1
    omega
  rw [eq_zero_of_ne_one hn, select_zero]

/-- With every word id in 0 … 49999 the guard bit is 1 at every index. -/
private theorem inRange_eq_one (wid : IVec S64x256 32) (hwid : ∀ i, 0 ≤ (wid i).toInt ∧ (wid i).toInt < 50000)
    (j : S64x256.Idx) : inRange wid j = 1#1 := by
  unfold inRange
  refine reduce_andi_one _ _ _ _ _ (fun _ => rfl) (fun i => ?_)
  show IntOp.andi (IntOp.cmpi .sge (startIdx wid i) 0#32) (IntOp.cmpi .sle (startIdx wid i) 49999#32) = 1#1
  obtain ⟨k, hk⟩ : ∃ k, startIdx wid i = wid k := ⟨_, by unfold startIdx; rw [wrapped_eq wid hwid]; rfl⟩
  rw [hk, IntOp.andi_eq_one, IntOp.cmpi_sge, IntOp.cmpi_sle, show (0#32 : BitVec 32).toInt = 0 from by decide,
    show (49999#32 : BitVec 32).toInt = 49999 from by decide]
  have := hwid k
  omega

/-- With every word id in range the guard never fires, and the guarded lookup is the reference's plain one. -/
theorem taken_eq (tab : FVec Ideal S50000x300 .f32) (wid : IVec S64x256 32)
    (hwid : ∀ i, 0 ≤ (wid i).toInt ∧ (wid i).toInt < 50000) :
    taken tab wid = Cert.ReferenceIdeal.Read.val_main_v27 (F := Ideal) tab wid := by
  funext i
  unfold taken
  rw [select_apply]
  have hg : broadcastInDim S64x256x300 ![0, 1] bcast_S64x256_S64x256x300_0_1 (inRange wid) i = 1#1 :=
    inRange_eq_one wid hwid _
  rw [hg, select_one]
  rfl

end Cert.Take

end
-- ==== Proof.KernelValue.lean ====
/-
  The kernel's result array, as one function of its four argument arrays.

  Grid point t handles sentences 4t … 4t+3: it reads their token word-indices (as a [4 × 512 × 1] column), their
  hidden states and their gathered embedding rows, and writes rows 4t … 4t+3 of the result. Reading each input
  block through its window gives the argument arrays at row 4t + r; the body's block is then block t of the
  specification; the sixteen blocks tile the [64 × 256 × 1068] result.
-/
import proofs.«406176_j45311904973549_3_alg».proof.Proof.KernelBlock
import proofs.«406176_j45311904973549_3_alg».proof.Proof.Take
import Idealize.ShloMosaic.Lib.StableHlo.Run
import Idealize.ShloMosaic.Lib.Pipeline.Value

set_option maxRecDepth 16384

noncomputable section

open scoped BigOperators

namespace Cert.KernelValue

open Cert.KernelIdeal Cert.KernelIdeal.Gen Idealize.ShloMosaic Idealize.ShloMosaic.TcCoe Idealize.ShloMosaic.Tactic
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The four argument arrays on core `c`, at their literal types. -/
abbrev hidArr (c : Dev nD) : FVec Ideal S64x512x768 .f32 := m ((c : Thread nD τ).loc main_arg0)
abbrev tabArr (c : Dev nD) : FVec Ideal S50000x300 .f32 := m ((c : Thread nD τ).loc main_arg1)
abbrev tokArr (c : Dev nD) : IVec S64x512 32 := m ((c : Thread nD τ).loc main_arg2)
abbrev widArr (c : Dev nD) : IVec S64x256 32 := m ((c : Thread nD τ).loc main_arg3)

/-! ## The arrays the region finds -/

/-- The token word-indices reach the region as a [64 × 512 × 1] column. -/
theorem V_tok (c : Dev nD) : (V m c main_v1 : S64x512x1.Idx → BitVec 32)
    = broadcastInDim S64x512x1 ![0, 1] bcast_S64x512_S64x512x1_0_1 (tokArr m c) := by
  dsimp only [Gen.V]
  simp only [Gen.hostOps0, Gen.hostOps0_1, List.flatten_cons, List.flatten_nil, List.append_nil, List.cons_append, List.nil_append]
  after_results

set_option maxHeartbeats 4000000 in
/-- The embedding rows reach the region as the guarded lookup of the table at the word ids. -/
theorem V_emb (c : Dev nD) : (V m c main_v0 : S64x256x300.Idx → EReal)
    = Cert.Take.taken (tabArr m c) (widArr m c) := by
  dsimp only [Gen.V]
  simp only [Gen.hostOps0, Gen.hostOps0_1, List.flatten_cons, List.flatten_nil, List.append_nil, List.cons_append, List.nil_append]
  after_results
  simp only [TRef.toBuf, TRef.ofBuf, cast_eq]
  rfl

/-- The hidden states reach the region as launched. -/
theorem V_hid (c : Dev nD) : (V m c main_arg0 : S64x512x768.Idx → EReal) = hidArr m c := V_main_arg0 m c

/-! ## The windows' blocks: point t's blocks are rows 4t … 4t+3 -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Row r of point t is sentence 4t + r. -/
abbrev sent (t : Fin cfg0.N) (r : Fin 4) : Fin 64 := ⟨4 * t.val + r.val, by have := t.isLt; have := r.isLt; change t.val < 16 at *; omega⟩

theorem tokBlk_apply (c : Dev nD) (t : Fin cfg0.N) (r : Fin 4) (s : Fin 512) :
    (iblk m c 0 t : S4x512x1.Idx → BitVec 32) (ix3 r s 0) = tokArr m c (ix2 (sent t r) s) := by
  obtain ⟨e0, e1, e2, -⟩ := idx_facts t
  show (V m c main_v1 : S64x512x1.Idx → BitVec 32) (((cfg0.win 0).blk t).view.emb (ix3 r s 0)) = _
  rw [V_tok]
  refine broadcastInDim_apply _ bcast_S64x512_S64x512x1_0_1 _ _ (ix2 (sent t r) s) (fun a => ?_)
  match a with
  | ⟨0, _⟩ =>
    show 4 * t.val + r.val = if (64 : Nat) = 1 then 0 else win0_0.index t (0 : Fin 3) * 4 + 1 * r.val
    rw [if_neg (by decide), e0]; omega
  | ⟨1, _⟩ =>
    show s.val = if (512 : Nat) = 1 then 0 else win0_0.index t (1 : Fin 3) * 512 + 1 * s.val
    rw [if_neg (by decide), e1]; omega

theorem hidBlk_apply (c : Dev nD) (t : Fin cfg0.N) (r : Fin 4) (s : Fin 512) (h : Fin 768) :
    (iblk m c 1 t : S4x512x768.Idx → EReal) (ix3 r s h) = hidArr m c (ix3 (sent t r) s h) := by
  obtain ⟨-, -, -, e0, e1, e2, -⟩ := idx_facts t
  show (V m c main_arg0 : S64x512x768.Idx → EReal) (((cfg0.win 1).blk t).view.emb (ix3 r s h)) = _
  rw [V_hid]
  refine congrArg (hidArr m c) (funext fun a => Fin.ext ?_)
  match a with
  | ⟨0, _⟩ => show win0_1.index t (0 : Fin 3) * 4 + 1 * r.val = 4 * t.val + r.val; rw [e0]; omega
  | ⟨1, _⟩ => show win0_1.index t (1 : Fin 3) * 512 + 1 * s.val = s.val; rw [e1]; omega
  | ⟨2, _⟩ => show win0_1.index t (2 : Fin 3) * 768 + 1 * h.val = h.val; rw [e2]; omega

theorem embBlk_apply (c : Dev nD) (t : Fin cfg0.N) (r : Fin 4) (w : Fin 256) (k : Fin 300) :
    (iblk m c 2 t : S4x256x300.Idx → EReal) (ix3 r w k) = Cert.Take.taken (tabArr m c) (widArr m c) (ix3 (sent t r) w k) := by
  obtain ⟨-, -, -, -, -, -, e0, e1, e2, -⟩ := idx_facts t
  show (V m c main_v0 : S64x256x300.Idx → EReal) (((cfg0.win 2).blk t).view.emb (ix3 r w k)) = _
  rw [V_emb]
  refine congrArg (Cert.Take.taken (tabArr m c) (widArr m c)) (funext fun a => Fin.ext ?_)
  match a with
  | ⟨0, _⟩ => show win0_2.index t (0 : Fin 3) * 4 + 1 * r.val = 4 * t.val + r.val; rw [e0]; omega
  | ⟨1, _⟩ => show win0_2.index t (1 : Fin 3) * 256 + 1 * w.val = w.val; rw [e1]; omega
  | ⟨2, _⟩ => show win0_2.index t (2 : Fin 3) * 300 + 1 * k.val = k.val; rw [e2]; omega

/-! ## One entry of a point's block from the argument arrays -/

/-- On the first 768 columns the block is the quotient payload; -/
theorem blockFn_lo (x0 : Vec Ideal S4x512x1 .i32) (x1 : Vec Ideal S4x512x768 .f32) (x2 : Vec Ideal S4x256x300 .f32)
    (r : Fin 4) (w : Fin 256) (j : Fin 1068) (hj : j.val < 768) :
    Cert.KernelBlock.blockFn x0 x1 x2 (ix3 r w j) = k0_pay1 (F := Ideal) x0 x1 (ix3 r w ⟨j.val, hj⟩) := dif_pos hj

/-- after them, the embedding block. -/
theorem blockFn_hi (x0 : Vec Ideal S4x512x1 .i32) (x1 : Vec Ideal S4x512x768 .f32) (x2 : Vec Ideal S4x256x300 .f32)
    (r : Fin 4) (w : Fin 256) (j : Fin 1068) (hj : ¬ j.val < 768) (k : Fin 300) (hk : k.val = j.val - 768) :
    Cert.KernelBlock.blockFn x0 x1 x2 (ix3 r w j) = x2 (ix3 r w k) := by
  refine (dif_neg hj).trans (congrArg x2 (funext fun d => ?_))
  match d with
  | ⟨0, _⟩ => rfl
  | ⟨1, _⟩ => rfl
  | ⟨2, _⟩ => exact Fin.ext hk.symm

/-- The quotient payload of blocks that are row `b` of the token ids and hidden states is the pooled mean of
    sentence `b`: the two weighted passes collapse to the sum over the word's members, every hidden value being real. -/
theorem pooled_of_blocks (x0 : Vec Ideal S4x512x1 .i32) (x1 : Vec Ideal S4x512x768 .f32)
    (tok : IVec S64x512 32) (hid : FVec Ideal S64x512x768 .f32) (b : Fin 64) (r : Fin 4)
    (h0 : ∀ s : Fin 512, x0 (ix3 r s 0) = tok (ix2 b s))
    (h1 : ∀ (s : Fin 512) (h : Fin 768), x1 (ix3 r s h) = hid (ix3 b s h))
    (hfin : ∀ i, ∃ q : ℝ, hid i = (q : EReal)) (w : Fin 256) (h : Fin 768) :
    k0_pay1 (F := Ideal) x0 x1 (ix3 r w h) = Cert.Spec.pooled hid tok b w h := by
  rw [Cert.Payload.pay1_apply]
  simp only [h0, h1]
  rw [Cert.Spec.two_pass (fun s : Fin 512 => tok (ix2 b s) = BitVec.ofNat 32 w.val) (fun s : Fin 512 => hid (ix3 b s h))
    (fun s => hfin _)]
  rfl

/-! ## What a point writes back, and the whole array -/

/-- WHAT POINT t WRITES BACK is block t of the specification over the argument arrays. -/
theorem flushed_eq (c : Dev nD) (t : Fin cfg0.N) (hfin : ∀ i, ∃ q : ℝ, hidArr m c i = (q : EReal)) :
    (dats m 0 c).flushed 3 t = ((cfg0.win 3).blk t).view.read (Elt Ideal)
      (Cert.Spec.result (hidArr m c) (tokArr m c) (Cert.Take.taken (tabArr m c) (widArr m c))) := by
  rw [Cert.KernelIdeal.Value.flushed3_A, Cert.KernelBlock.out_eq]
  obtain ⟨-, -, -, -, -, -, -, -, -, e0, e1, e2⟩ := idx_facts t
  funext y
  obtain ⟨r, w, j, rfl⟩ : ∃ (r : Fin 4) (w : Fin 256) (j : Fin 1068), y = ix3 r w j := ⟨y 0, y 1, y 2, eq_ix3 y⟩
  have hemb : ((cfg0.win 3).blk t).view.emb (ix3 r w j) = (ix3 (sent t r) w j : S64x256x1068.Idx) := by
    funext a; apply Fin.ext
    match a with
    | ⟨0, _⟩ => show win0_3.index t (0 : Fin 3) * 4 + 1 * r.val = 4 * t.val + r.val; rw [e0]; omega
    | ⟨1, _⟩ => show win0_3.index t (1 : Fin 3) * 256 + 1 * w.val = w.val; rw [e1]; omega
    | ⟨2, _⟩ => show win0_3.index t (2 : Fin 3) * 1068 + 1 * j.val = j.val; rw [e2]; omega
  show Cert.KernelBlock.blockFn (iblk m c 0 t) (iblk m c 1 t) (iblk m c 2 t) (ix3 r w j)
    = Cert.Spec.result (hidArr m c) (tokArr m c) (Cert.Take.taken (tabArr m c) (widArr m c)) (((cfg0.win 3).blk t).view.emb (ix3 r w j))
  rw [hemb]
  by_cases hj : j.val < 768
  · rw [Cert.Spec.result_lo _ _ _ _ _ _ hj]
    refine (blockFn_lo (iblk m c 0 t) (iblk m c 1 t) (iblk m c 2 t) r w j hj).trans ?_
    exact pooled_of_blocks (iblk m c 0 t) (iblk m c 1 t) (tokArr m c) (hidArr m c) (sent t r) r
      (fun s => tokBlk_apply m c t r s) (fun s h => hidBlk_apply m c t r s h) hfin w ⟨j.val, hj⟩
  · have hk : j.val - 768 < 300 := by have := j.isLt; omega
    rw [Cert.Spec.result_hi _ _ _ _ _ _ hj ⟨j.val - 768, hk⟩ rfl]
    refine (blockFn_hi (iblk m c 0 t) (iblk m c 1 t) (iblk m c 2 t) r w j hj ⟨j.val - 768, hk⟩ rfl).trans ?_
    exact embBlk_apply m c t r w ⟨j.val - 768, hk⟩

/-- An index of the result is in point t's block iff each coordinate is in the block's range on its axis. -/
theorem mem_blk (t : Fin cfg0.N) (i : S64x256x1068.Idx) :
    i ∈ ((cfg0.win 3).blk t).view.set ↔ ∀ a : Fin 3, win0_3.index t a * S4x256x1068.size a ≤ (i a).val ∧ (i a).val < win0_3.index t a * S4x256x1068.size a + S4x256x1068.size a := by
  show i ∈ ((View.whole main_v2).slice (win0_3.rect t)).set ↔ _
  rw [View.set_slice_whole, Rect.mem_set_unit]
  exact Iff.rfl

/-- The sixteen blocks tile the result: sentence b is in the block of point b / 4. -/
theorem cover (i : S64x256x1068.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1068 := (i 2).isLt
  have ht : (i 0).val / 4 < 16 := by omega
  obtain ⟨-, -, -, -, -, -, -, -, -, e0, e1, e2⟩ := idx_facts ⟨(i 0).val / 4, ht⟩
  refine ⟨⟨(i 0).val / 4, ht⟩, flush0_3 _, ?_⟩
  rw [mem_blk]
  intro a
  match a with
  | ⟨0, _⟩ =>
    show win0_3.index ⟨(i 0).val / 4, ht⟩ (0 : Fin 3) * 4 ≤ (i 0).val ∧ (i 0).val < win0_3.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_3.index ⟨(i 0).val / 4, ht⟩ (1 : Fin 3) * 256 ≤ (i 1).val ∧ (i 1).val < win0_3.index ⟨(i 0).val / 4, ht⟩ (1 : Fin 3) * 256 + 256
    rw [e1]; omega
  | ⟨2, _⟩ =>
    show win0_3.index ⟨(i 0).val / 4, ht⟩ (2 : Fin 3) * 1068 ≤ (i 2).val ∧ (i 2).val < win0_3.index ⟨(i 0).val / 4, ht⟩ (2 : Fin 3) * 1068 + 1068
    rw [e2]; omega

/-- THE ARRAY after the run: the specification over the argument arrays. -/
theorem final (c : Dev nD) (hfin : ∀ i, ∃ q : ℝ, hidArr m c i = (q : EReal)) :
    (dats m 0 c).arrAt 3 cfg0.N
      = Cert.Spec.result (hidArr m c) (tokArr m c) (Cert.Take.taken (tabArr m c) (widArr m c)) :=
  (dats m 0 c).arrAt_eq_of_cover 3 _ (fun t _ => flushed_eq m c t hfin) cover

/-- The kernel's run, read: the result array is the specification, the arguments are unchanged. -/
theorem run (hfin : ∀ c i, ∃ q : ℝ, hidArr m c i = (q : EReal)) :
    θ_run defs (onTc (τ := τ) (main (F := Ideal))) ⟨m, fun _ => 0, ρ⟩ fun r => ∀ c : Dev nD,
      r.2.mem ((c : Thread nD τ).loc main_v2)
        = Cert.Spec.result (hidArr m c) (tokArr m c) (Cert.Take.taken (tabArr m c) (widArr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfin c)), (h c).2⟩)
    (Cert.KernelIdeal.Value.run_blocks m ρ)

end Cert.KernelValue

end
-- ==== Proof.SegmentSum.lean ====
/-
  The reference's flat scatter, as mathematics: summing over all 64·512 tokens those whose flat key 256·b' + tok
  equals 256·b + w picks exactly the tokens of sentence b whose word index is w — as long as every word index
  lies in 0 … 255, so that a key determines its sentence.
-/
import proofs.«406176_j45311904973549_3_alg».proof.Proof.Spec

noncomputable section

open scoped BigOperators

namespace Cert.Spec

open Idealize.ShloMosaic Idealize.ShloMosaic.ValueIdx

/-- A 32-bit word whose signed value lies in 0 … 255 has that same unsigned value. -/
private theorem toNat_lt_of_toInt (t : BitVec 32) (h0 : 0 ≤ t.toInt) (h1 : t.toInt < 256) : t.toNat < 256 := by
  have hlt := t.isLt
  rw [BitVec.toInt_eq_toNat_cond] at h0 h1
  split_ifs at h0 h1 <;> omega

/-- No wrap: the flat key of token `s` of sentence `b'` is the number 256·b' + (word index), and that number
    is 256·b + w exactly when the sentence is `b` and the word index is `w`. -/
private theorem key_iff (tok : IVec STok 32) (htok : ∀ i, 0 ≤ (tok i).toInt ∧ (tok i).toInt < 256)
    (b' b : Fin 64) (s : Fin 512) (w : Fin 256) :
    (flatKey tok b' s).toInt = ((b.val * 256 + w.val : Nat) : Int) ↔ (b' = b ∧ isMember tok b w s) := by
  have ht := toNat_lt_of_toInt (tok (ix2 b' s)) (htok _).1 (htok _).2
  have hb' := b'.isLt
  have hb := b.isLt
  have hw := w.isLt
  have hk : (flatKey tok b' s).toNat = b'.val * 256 + (tok (ix2 b' s)).toNat := by
    unfold flatKey IntOp.addi IntOp.muli
    simp only [BitVec.toNat_add, BitVec.toNat_mul, BitVec.toNat_ofNat]
    omega
  have hki : (flatKey tok b' s).toInt = ((flatKey tok b' s).toNat : Int) := by
    rw [BitVec.toInt_eq_toNat_cond, if_pos (by rw [hk]; omega)]
  rw [hki, hk]
  constructor
  · intro h
    have h' : b'.val * 256 + (tok (ix2 b' s)).toNat = b.val * 256 + w.val := by exact_mod_cast h
    have hbb : b' = b := Fin.ext (by omega)
    subst hbb
    refine ⟨rfl, ?_⟩
    show tok (ix2 b' s) = BitVec.ofNat 32 w.val
    apply BitVec.eq_of_toNat_eq
    rw [BitVec.toNat_ofNat]
    omega
  · rintro ⟨rfl, hm⟩
    have hm' : tok (ix2 b' s) = BitVec.ofNat 32 w.val := hm
    rw [hm', BitVec.toNat_ofNat, Nat.mod_eq_of_lt (by omega)]

/-- A flat token number k in 0 … 64·512 − 1 is the pair (k / 512, k % 512), and every pair arises once. -/
private def splitEquiv : Fin 32768 ≃ Fin 64 × Fin 512 where
  toFun k := (⟨k.val / 512, by have := k.isLt; omega⟩, ⟨k.val % 512, Nat.mod_lt _ (by decide)⟩)
  invFun p := ⟨p.1.val * 512 + p.2.val, by have := p.1.isLt; have := p.2.isLt; omega⟩
  left_inv k := by
    apply Fin.ext
    show k.val / 512 * 512 + k.val % 512 = k.val
    omega
  right_inv p := by
    rcases p with ⟨a, c⟩
    have ha := a.isLt
    have hc := c.isLt
    apply Prod.ext <;> apply Fin.ext
    · show (a.val * 512 + c.val) / 512 = a.val
      omega
    · show (a.val * 512 + c.val) % 512 = c.val
      omega

theorem segment_sum (tok : IVec STok 32) (htok : ∀ i, 0 ≤ (tok i).toInt ∧ (tok i).toInt < 256)
    (f : Fin 64 → Fin 512 → EReal) (b : Fin 64) (w : Fin 256) :
    (∑ k : Fin 32768,
      if (flatKey tok ⟨k.val / 512, by have := k.isLt; omega⟩ ⟨k.val % 512, Nat.mod_lt _ (by decide)⟩).toInt
          = ((b.val * 256 + w.val : Nat) : Int)
      then f ⟨k.val / 512, by have := k.isLt; omega⟩ ⟨k.val % 512, Nat.mod_lt _ (by decide)⟩ else 0)
      = ∑ s : Fin 512, if isMember tok b w s then f b s else 0 := by
  have hsplit : ∀ F : Fin 64 → Fin 512 → EReal,
      (∑ k : Fin 32768, F ⟨k.val / 512, by have := k.isLt; omega⟩ ⟨k.val % 512, Nat.mod_lt _ (by decide)⟩)
        = ∑ b' : Fin 64, ∑ s : Fin 512, F b' s := by
    intro F
    rw [← Fintype.sum_prod_type (f := fun p : Fin 64 × Fin 512 => F p.1 p.2)]
    exact Fintype.sum_equiv splitEquiv _ (fun p => F p.1 p.2) (fun _ => rfl)
  rw [hsplit (fun b' s => if (flatKey tok b' s).toInt = ((b.val * 256 + w.val : Nat) : Int) then f b' s else 0)]
  rw [Finset.sum_eq_single b]
  · apply Finset.sum_congr rfl
    intro s _
    by_cases hm : isMember tok b w s
    · rw [if_pos ((key_iff tok htok b b s w).mpr ⟨rfl, hm⟩), if_pos hm]
    · rw [if_neg (fun h => hm ((key_iff tok htok b b s w).mp h).2), if_neg hm]
  · intro b' _ hne
    apply Finset.sum_eq_zero
    intro s _
    exact if_neg (fun h => hne ((key_iff tok htok b' b s w).mp h).1)
  · intro h
    exact absurd (Finset.mem_univ b) h

end Cert.Spec

end
-- ==== Proof.RefScatter.lean ====
/-
  The reference's two accumulating scatters read at an index, over the extended reals: an element of the result
  is the operand's element plus the sum of the updates whose (signed, unclamped) scatter index names its row.
-/
import proofs.«406176_j45311904973549_3_alg».proof.ReferenceIdeal
import proofs.«406176_j45311904973549_3_alg».proof.Proof.Spec

noncomputable section

open scoped BigOperators

namespace Cert.RefScatter

open Idealize.ShloMosaic Idealize.ShloMosaic.ValueIdx Cert.ReferenceIdeal

variable [Cert.ReferenceIdeal.Facts]

/-! ## The rows scatter: operand [16384 × 768], one signed row index per update row -/

private abbrev dR := scatter_S16384x768_S32768x1_S32768x768_1_0_0_1

private theorem dR_mem0 : (0 : Fin S16384x768.rank) ∈ dR.scatterDimsToOperandDims := List.mem_singleton.mpr rfl

/-- The update index (k, h') reads its start index at (k, 0). -/
private theorem dR_siIdx (k : Fin 32768) (h' : Fin 768) :
    dR.siIdx (u := S32768x768) (ix2 k h') ⟨List.idxOf (0 : Fin S16384x768.rank) dR.scatterDimsToOperandDims,
      List.idxOf_lt_length_iff.2 dR_mem0⟩ = ix2 k 0 := by
  funext b; refine Fin.ext ?_
  match b with
  | ⟨0, _⟩ => rfl
  | ⟨1, _⟩ => rfl

/-- On the row axis the window starts at the signed index; the column axis starts at 0. -/
private theorem dR_start0 (idx : IVec S32768x1 32) (k : Fin 32768) (h' : Fin 768) :
    dR.start (u := S32768x768) (ix2 k h') idx 0 = (idx (ix2 k 0)).toInt := by
  unfold ScatterDims.start
  rw [dif_pos dR_mem0, dR_siIdx]
private theorem dR_start1 (idx : IVec S32768x1 32) (k : Fin 32768) (h' : Fin 768) :
    dR.start (u := S32768x768) (ix2 k h') idx 1 = 0 := rfl
/-- The window coordinate is 0 on the (inserted) row axis and h' on the column axis. -/
private theorem dR_window0 (k : Fin 32768) (h' : Fin 768) : dR.window (u := S32768x768) (ix2 k h') 0 = 0 := rfl
private theorem dR_window1 (k : Fin 32768) (h' : Fin 768) : dR.window (u := S32768x768) (ix2 k h') 1 = h'.val := rfl

/-- Update (k, h') lands at (r, h) exactly when its signed index is r and h' = h. -/
private theorem dR_resultIdx_iff (idx : IVec S32768x1 32) (k : Fin 32768) (h' : Fin 768) (r : Fin 16384) (h : Fin 768) :
    dR.resultIdx? (u := S32768x768) (ix2 k h') idx = some (ix2 r h) ↔ (idx (ix2 k 0)).toInt = (r.val : Int) ∧ h' = h := by
  unfold ScatterDims.resultIdx?
  constructor
  · intro hh
    split at hh
    · rename_i hall
      have he := Option.some.inj hh
      have h0 := congrArg (fun f => (f 0).val) he
      have h1 := congrArg (fun f => (f 1).val) he
      have ha0 := hall 0
      simp only [dR_start0, dR_window0, dR_start1, dR_window1] at h0 h1 ha0
      refine ⟨?_, Fin.ext ?_⟩
      · have : ((ix2 r h : S16384x768.Idx) 0).val = r.val := rfl
        omega
      · have : ((ix2 r h : S16384x768.Idx) 1).val = h.val := rfl
        omega
    · exact absurd hh (by simp)
  · rintro ⟨ht, rfl⟩
    have hall : ∀ a, 0 ≤ dR.start (u := S32768x768) (ix2 k h') idx a + dR.window (u := S32768x768) (ix2 k h') a ∧
        dR.start (u := S32768x768) (ix2 k h') idx a + dR.window (u := S32768x768) (ix2 k h') a < S16384x768.size a := by
      intro a
      match a with
      | ⟨0, _⟩ =>
        show 0 ≤ dR.start (u := S32768x768) (ix2 k h') idx 0 + dR.window (u := S32768x768) (ix2 k h') 0 ∧
          dR.start (u := S32768x768) (ix2 k h') idx 0 + dR.window (u := S32768x768) (ix2 k h') 0 < (16384 : Nat)
        rw [dR_start0, dR_window0, ht]; have := r.isLt; omega
      | ⟨1, _⟩ =>
        show 0 ≤ dR.start (u := S32768x768) (ix2 k h') idx 1 + dR.window (u := S32768x768) (ix2 k h') 1 ∧
          dR.start (u := S32768x768) (ix2 k h') idx 1 + dR.window (u := S32768x768) (ix2 k h') 1 < (768 : Nat)
        rw [dR_start1, dR_window1]; have := h'.isLt; omega
    rw [dif_pos hall]
    congr 1
    funext a; refine Fin.ext ?_
    match a with
    | ⟨0, _⟩ =>
      show (dR.start (u := S32768x768) (ix2 k h') idx 0 + dR.window (u := S32768x768) (ix2 k h') 0).toNat = r.val
      rw [dR_start0, dR_window0, ht]; omega
    | ⟨1, _⟩ =>
      show (dR.start (u := S32768x768) (ix2 k h') idx 1 + dR.window (u := S32768x768) (ix2 k h') 1).toNat = h'.val
      rw [dR_start1, dR_window1]; omega

/-- Rows: element (r, h) of the scattered [16384 × 768] array gathers row h-entries of every update row k whose index is r. -/
theorem sum_rows (x : S16384x768.Idx → EReal) (idx : IVec S32768x1 32) (upd : S32768x768.Idx → EReal)
    (r : Fin 16384) (h : Fin 768) :
    Host.scatterAdd (F := Ideal) (φ := .f32) scatter_S16384x768_S32768x1_S32768x768_1_0_0_1 x idx upd (ix2 r h)
      = x (ix2 r h) + ∑ k : Fin 32768, if (idx (ix2 k 0)).toInt = (r.val : Int) then upd (ix2 k h) else 0 := by
  show x (ix2 r h) + ∑ j ∈ Finset.univ.filter (fun j => dR.resultIdx? j idx = some (ix2 r h)), upd j = _
  refine congrArg (x (ix2 r h) + ·) ?_
  rw [Finset.sum_filter, sum_idx2]
  refine Finset.sum_congr rfl fun k _ => ?_
  simp only [dR_resultIdx_iff]
  by_cases ht : (idx (ix2 k 0)).toInt = (r.val : Int)
  · simp [ht]
  · simp [ht]

/-! ## The flat scatter: operand [16384], one signed index per update -/

private abbrev dF := scatter_S16384_S32768x1_S32768_n_0_0_1

private theorem dF_mem0 : (0 : Fin S16384.rank) ∈ dF.scatterDimsToOperandDims := List.mem_singleton.mpr rfl

/-- The update index k reads its start index at (k, 0). -/
private theorem dF_siIdx (k : Fin 32768) :
    dF.siIdx (u := S32768) (ix1 k) ⟨List.idxOf (0 : Fin S16384.rank) dF.scatterDimsToOperandDims,
      List.idxOf_lt_length_iff.2 dF_mem0⟩ = ix2 k 0 := by
  funext b; refine Fin.ext ?_
  match b with
  | ⟨0, _⟩ => rfl
  | ⟨1, _⟩ => rfl

/-- The window starts at the signed index, with window coordinate 0 (the one axis is inserted). -/
private theorem dF_start0 (idx : IVec S32768x1 32) (k : Fin 32768) :
    dF.start (u := S32768) (ix1 k) idx 0 = (idx (ix2 k 0)).toInt := by
  unfold ScatterDims.start
  rw [dif_pos dF_mem0, dF_siIdx]
private theorem dF_window0 (k : Fin 32768) : dF.window (u := S32768) (ix1 k) 0 = 0 := rfl

/-- Update k lands at r exactly when its signed index is r. -/
private theorem dF_resultIdx_iff (idx : IVec S32768x1 32) (k : Fin 32768) (r : Fin 16384) :
    dF.resultIdx? (u := S32768) (ix1 k) idx = some (ix1 r) ↔ (idx (ix2 k 0)).toInt = (r.val : Int) := by
  unfold ScatterDims.resultIdx?
  constructor
  · intro hh
    split at hh
    · rename_i hall
      have he := Option.some.inj hh
      have h0 := congrArg (fun f => (f 0).val) he
      have ha0 := hall 0
      simp only [dF_start0, dF_window0] at h0 ha0
      have : ((ix1 r : S16384.Idx) 0).val = r.val := rfl
      omega
    · exact absurd hh (by simp)
  · intro ht
    have hall : ∀ a, 0 ≤ dF.start (u := S32768) (ix1 k) idx a + dF.window (u := S32768) (ix1 k) a ∧
        dF.start (u := S32768) (ix1 k) idx a + dF.window (u := S32768) (ix1 k) a < S16384.size a := by
      intro a
      match a with
      | ⟨0, _⟩ =>
        show 0 ≤ dF.start (u := S32768) (ix1 k) idx 0 + dF.window (u := S32768) (ix1 k) 0 ∧
          dF.start (u := S32768) (ix1 k) idx 0 + dF.window (u := S32768) (ix1 k) 0 < (16384 : Nat)
        rw [dF_start0, dF_window0, ht]; have := r.isLt; omega
    rw [dif_pos hall]
    congr 1
    funext a; refine Fin.ext ?_
    match a with
    | ⟨0, _⟩ =>
      show (dF.start (u := S32768) (ix1 k) idx 0 + dF.window (u := S32768) (ix1 k) 0).toNat = r.val
      rw [dF_start0, dF_window0, ht]; omega

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) := by
  refine (Fintype.sum_equiv ⟨fun a => ix1 a, fun i => i 0, fun _ => rfl, fun i => (eq_ix1 i).symm⟩ _ _ fun _ => rfl).symm

/-- Flat: element r of the scattered [16384] array gathers every update k whose index is r. -/
theorem sum_flat (x : S16384.Idx → EReal) (idx : IVec S32768x1 32) (upd : S32768.Idx → EReal) (r : Fin 16384) :
    Host.scatterAdd (F := Ideal) (φ := .f32) scatter_S16384_S32768x1_S32768_n_0_0_1 x idx upd (ix1 r)
      = x (ix1 r) + ∑ k : Fin 32768, if (idx (ix2 k 0)).toInt = (r.val : Int) then upd (ix1 k) else 0 := by
  show x (ix1 r) + ∑ j ∈ Finset.univ.filter (fun j => dF.resultIdx? j idx = some (ix1 r)), upd j = _
  refine congrArg (x (ix1 r) + ·) ?_
  rw [Finset.sum_filter, sum_idx1]
  refine Finset.sum_congr rfl fun k _ => ?_
  simp only [dF_resultIdx_iff]

end Cert.RefScatter

end
-- ==== Proof.RefValue.lean ====
/-
  The reference's result term is the specification: its scatter of every token into 64·256 flat segments,
  divided by the floored scatter of ones, is the pooled mean; the concatenation lays the embedding rows after it.
-/
import proofs.«406176_j45311904973549_3_alg».proof.Proof.Gen.ReferenceIdeal.Read
import proofs.«406176_j45311904973549_3_alg».proof.Proof.Spec
import proofs.«406176_j45311904973549_3_alg».proof.Proof.SegmentSum
import proofs.«406176_j45311904973549_3_alg».proof.Proof.RefScatter

noncomputable section

open scoped BigOperators

namespace Cert.RefValue

open Idealize.ShloMosaic Idealize.ShloMosaic.ValueIdx Cert.ReferenceIdeal Cert.ReferenceIdeal.Gen Cert.ReferenceIdeal.Read

/-- The float word of 1.0 denotes the extended real 1. -/
private theorem ofBits_one_f32 : Ideal.ofBits .f32 0x3F800000#32 = 1 := by
  simp [Ideal.ofBits, Ideal.ieee]
  rw [← EReal.coe_mul]
  norm_num

/-! ## The indices the layout operations read -/

/-- Token number k of the flattened batch is token k % 512 of sentence k / 512. -/
private theorem idx_tok (k : Fin 32768) :
    idx_main_v6 (idx_main_v9 (ix2 k (0 : Fin 1)))
      = ix2 (⟨k.val / 512, by have := k.isLt; omega⟩ : Fin 64) (⟨k.val % 512, Nat.mod_lt _ (by decide)⟩ : Fin 512) := by
  funext d
  match d with
  | ⟨0, _⟩ => rfl
  | ⟨1, _⟩ => rfl

/-- The scatter index of token number k is its flat segment key. -/
private theorem key_eq (tok : IVec S64x512 32) (k : Fin 32768) :
    val_main_v9 (F := Ideal) tok (ix2 k (0 : Fin 1))
      = Cert.Spec.flatKey tok ⟨k.val / 512, by have := k.isLt; omega⟩ ⟨k.val % 512, Nat.mod_lt _ (by decide)⟩ := by
  rw [val_main_v9_apply, val_main_v6_apply, val_main_v5_apply, val_main_v4_apply, val_main_v3_apply,
    val_main_v1_apply, val_main_v0_apply, val_main_v2_apply, val_main_c_apply, idx_tok]
  rfl

/-- Row k of the flattened hidden states is the hidden vector of token k % 512 of sentence k / 512. -/
private theorem upd_eq (hid : FVec Ideal S64x512x768 .f32) (k : Fin 32768) (h : Fin 768) :
    val_main_v7 (F := Ideal) hid (ix2 k h)
      = hid (ix3 (⟨k.val / 512, by have := k.isLt; omega⟩ : Fin 64) (⟨k.val % 512, Nat.mod_lt _ (by decide)⟩ : Fin 512) h) := by
  rw [val_main_v7_apply]
  congr 1
  funext d
  have hk := k.isLt
  have hh := h.isLt
  match d with
  | ⟨0, _⟩ => exact Fin.ext (by show (k.val * 768 + h.val) / 393216 = k.val / 512; omega)
  | ⟨1, _⟩ => exact Fin.ext (by show (k.val * 768 + h.val) / 768 % 512 = k.val % 512; omega)
  | ⟨2, _⟩ => exact Fin.ext (by show (k.val * 768 + h.val) % 768 = h.val; omega)

/-- Word w of sentence b is row 256·b + w of the flat segment array. -/
private theorem idx_row (b : Fin 64) (w : Fin 256) (h : Fin 768) :
    idx_main_v11 (ix3 b w h)
      = ix2 (⟨b.val * 256 + w.val, by have := b.isLt; have := w.isLt; omega⟩ : Fin 16384) h := by
  funext d
  have hb := b.isLt
  have hw := w.isLt
  have hh := h.isLt
  match d with
  | ⟨0, _⟩ => exact Fin.ext (by show ((b.val * 256 + w.val) * 768 + h.val) / 768 = b.val * 256 + w.val; omega)
  | ⟨1, _⟩ => exact Fin.ext (by show ((b.val * 256 + w.val) * 768 + h.val) % 768 = h.val; omega)

/-- Word w of sentence b is entry 256·b + w of the flat count array. -/
private theorem idx_cnt (b : Fin 64) (w : Fin 256) (h : Fin 768) :
    idx_main_v16 (idx_main_v19 (ix3 b w h))
      = ix1 (⟨b.val * 256 + w.val, by have := b.isLt; have := w.isLt; omega⟩ : Fin 16384) := by
  funext d
  match d with
  | ⟨0, _⟩ => exact Fin.ext (by show (b.val * 256 + w.val) * 1 + 0 = b.val * 256 + w.val; omega)

/-! ## The two scatters, as the member sum and the member count -/

/-- The scattered hidden states at word w of sentence b: the sum over the word's tokens. -/
private theorem num_eq (hid : FVec Ideal S64x512x768 .f32) (tok : IVec S64x512 32)
    (htok : ∀ i, 0 ≤ (tok i).toInt ∧ (tok i).toInt < 256) (b : Fin 64) (w : Fin 256) (h : Fin 768) :
    val_main_v11 (F := Ideal) hid tok (ix3 b w h) = Cert.Spec.memberSum hid tok b w h := by
  rw [val_main_v11_apply, idx_row]
  unfold val_main_v10
  rw [Cert.RefScatter.sum_rows, val_main_v8_apply, val_main_cst_apply, Ideal.ofBits_def, Ideal.ofBits_zero_f32, zero_add]
  unfold Cert.Spec.memberSum
  rw [← Cert.Spec.segment_sum tok htok (fun b' s => hid (ix3 b' s h)) b w]
  refine Finset.sum_congr rfl fun k _ => ?_
  rw [key_eq, upd_eq]

/-- The scattered ones at entry 256·b + w: the number of tokens of word w of sentence b. -/
private theorem cnt_eq (tok : IVec S64x512 32)
    (htok : ∀ i, 0 ≤ (tok i).toInt ∧ (tok i).toInt < 256) (b : Fin 64) (w : Fin 256) :
    val_main_v15 (F := Ideal) tok
        (ix1 (⟨b.val * 256 + w.val, by have := b.isLt; have := w.isLt; omega⟩ : Fin 16384))
      = Cert.Spec.memberCount tok b w := by
  unfold val_main_v15
  rw [Cert.RefScatter.sum_flat, val_main_v13_apply, val_main_cst_1_apply, Ideal.ofBits_def, Ideal.ofBits_zero_f32, zero_add]
  unfold Cert.Spec.memberCount
  rw [← Cert.Spec.segment_sum tok htok (fun _ _ => (1 : EReal)) b w]
  refine Finset.sum_congr rfl fun k _ => ?_
  have hk : val_main_v14 (F := Ideal) tok (ix2 k (0 : Fin 1)) = val_main_v9 (F := Ideal) tok (ix2 k (0 : Fin 1)) := rfl
  rw [val_main_v12_apply, val_main_cst_0_apply, Ideal.ofBits_def, ofBits_one_f32, hk, key_eq]

/-- The divisor at word w of sentence b: the member count, floored at the word of 1.0. -/
private theorem den_eq (tok : IVec S64x512 32)
    (htok : ∀ i, 0 ≤ (tok i).toInt ∧ (tok i).toInt < 256) (b : Fin 64) (w : Fin 256) (h : Fin 768) :
    val_main_v19 (F := Ideal) tok (ix3 b w h) = max (Cert.Spec.memberCount tok b w) Cert.Spec.oneWord := by
  rw [val_main_v19_apply, val_main_v18_apply, Ideal.maximumf_def, val_main_v17_apply, val_main_cst_2_apply,
    Ideal.ofBits_def, val_main_v16_apply, idx_cnt, cnt_eq tok htok]

theorem ref_eq (hid : FVec Ideal S64x512x768 .f32) (tab : FVec Ideal S50000x300 .f32) (tok : IVec S64x512 32) (wid : IVec S64x256 32)
    (htok : ∀ i, 0 ≤ (tok i).toInt ∧ (tok i).toInt < 256) :
    val_main_v28 (F := Ideal) hid tab tok wid
      = Cert.Spec.result hid tok (val_main_v27 (F := Ideal) tab wid) := by
  funext i
  obtain ⟨b, w, j, rfl⟩ : ∃ (b : Fin 64) (w : Fin 256) (j : Fin 1068), i = ix3 b w j := ⟨_, _, _, eq_ix3 i⟩
  unfold val_main_v28
  by_cases hj : j.val < 768
  · -- the pooled means: the first piece
    rw [Cert.Spec.result_lo hid tok _ b w j hj,
      concatenate_pair_apply_left (t := S64x256x1068) (s₁ := S64x256x768) (s₂ := S64x256x300) (2 : Fin 3) _ _ _ (ix3 b w j) rfl (ix3 b w (⟨j.val, hj⟩ : Fin 768))
        (fun d => match d with
          | ⟨0, _⟩ => rfl
          | ⟨1, _⟩ => rfl
          | ⟨2, _⟩ => rfl)]
    rw [val_main_v20_apply, Ideal.hostDivf_def, num_eq hid tok htok, den_eq tok htok]
    rfl
  · -- the embedding rows: the second piece, 768 places on
    have hlt : j.val - 768 < 300 := by have := j.isLt; omega
    rw [Cert.Spec.result_hi hid tok _ b w j hj ⟨j.val - 768, hlt⟩ rfl,
      concatenate_pair_apply_right (t := S64x256x1068) (s₁ := S64x256x768) (s₂ := S64x256x300) (2 : Fin 3) _ _ _ (ix3 b w j) rfl rfl (ix3 b w (⟨j.val - 768, hlt⟩ : Fin 300))
        (fun d => match d with
          | ⟨0, _⟩ => fun _ => rfl
          | ⟨1, _⟩ => fun _ => rfl
          | ⟨2, _⟩ => fun hd => absurd rfl hd)
        (by show j.val - 768 + 768 = j.val; omega)]

end Cert.RefValue

end
-- ==== Proof.PreDecode.lean ====
/-
  What the precondition says, element by element: every hidden value and every embedding-table entry is a real
  number, every token's word index lies in 0 … 255, every word id in 0 … 49999.
-/
import proofs.«406176_j45311904973549_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

variable [Cert.Pre_finite_inputs.Facts]

/-- The pattern with an all-ones exponent and a zero fraction, sign clear, denotes +∞. -/
private theorem top_bits : Ideal.ofBits .f32 0x7F800000#32 = (⊤ : EReal) := by
  simp [Ideal.ofBits, Ideal.ieee]

/-- An extended real whose absolute value max(x, −x) lies strictly below +∞ is neither infinity: it is a real number. -/
private theorem real_of_abs_lt (x : EReal)
    (h : Ideal.cmp .olt (max x (-x)) (Ideal.ofBits .f32 0x7F800000#32) = 1#1) : ∃ r : ℝ, x = (r : EReal) := by
  rw [top_bits] at h
  induction x using EReal.rec with
  | bot => simp [Ideal.cmp] at h
  | coe r => exact ⟨r, rfl⟩
  | top => simp [Ideal.cmp] at h

theorem decode (hid : FVec Ideal S64x512x768 .f32) (tab : FVec Ideal S50000x300 .f32) (tok : IVec S64x512 32) (wid : IVec S64x256 32)
    (h : Cert.Pre_finite_inputs.fn (F := Ideal) hid tab tok wid = fun _ => 1#1) :
    (∀ i, ∃ r : ℝ, hid i = (r : EReal))
    ∧ (∀ i, 0 ≤ (tok i).toInt ∧ (tok i).toInt < 256)
    ∧ (∀ i, 0 ≤ (wid i).toInt ∧ (wid i).toInt < 50000) := by
  -- the predicate at its one index: a conjunction of four reductions by "and", each of which is 1
  have h0 := congrFun h ValueIdx.ix0
  unfold Cert.Pre_finite_inputs.fn Cert.Pre_finite_inputs.fn_part1 at h0
  dsimp only at h0
  haveI : Subsingleton S_.Idx := ⟨fun a b => funext fun d => d.elim0⟩
  obtain ⟨h123, hw⟩ := IntOp.andi_eq_one.1 h0
  obtain ⟨h12, ht⟩ := IntOp.andi_eq_one.1 h123
  obtain ⟨hh, -⟩ := IntOp.andi_eq_one.1 h12
  refine ⟨fun i => ?_, fun i => ?_, fun i => ?_⟩
  -- a reduction by "and" over all axes that is 1 met a 1 at every element; there |hid i| < +∞
  · exact real_of_abs_lt _ (Host.reduce_andi_all _ _ _ _ _ hh i)
  -- at element i both signed comparisons hold: 0 ≤ tok i and tok i < 256
  · obtain ⟨e1, e2⟩ := IntOp.andi_eq_one.1 (Host.reduce_andi_all _ _ _ _ _ ht i)
    have a1 : (0#32 : BitVec 32).toInt ≤ (tok i).toInt := IntOp.cmpi_sge.1 e1
    have a2 : (tok i).toInt < (256#32 : BitVec 32).toInt := IntOp.cmpi_slt.1 e2
    rw [show (0#32 : BitVec 32).toInt = 0 from by decide] at a1
    rw [show (256#32 : BitVec 32).toInt = 256 from by decide] at a2
    exact ⟨a1, a2⟩
  -- likewise 0 ≤ wid i and wid i < 50000
  · obtain ⟨e1, e2⟩ := IntOp.andi_eq_one.1 (Host.reduce_andi_all _ _ _ _ _ hw i)
    have a1 : (0#32 : BitVec 32).toInt ≤ (wid i).toInt := IntOp.cmpi_sge.1 e1
    have a2 : (wid i).toInt < (50000#32 : BitVec 32).toInt := IntOp.cmpi_slt.1 e2
    rw [show (0#32 : BitVec 32).toInt = 0 from by decide] at a1
    rw [show (50000#32 : BitVec 32).toInt = 50000 from by decide] at a2
    exact ⟨a1, a2⟩

end Cert.PreDecode

end
-- ==== Proof.lean ====
/-
  Segment-mean pooling of subword hidden states into words, fused with a word-embedding lookup: the kernel
  against its jnp reference, over the extended reals.

  Inputs: hidden states [64 × 512 × 768], an embedding table [50000 × 300], the word index of every token
  [64 × 512] and the vocabulary id of every word [64 × 256]. Result [64 × 256 × 1068]: per sentence and word the
  mean of the hidden vectors of the word's tokens (a word with no token gives zeros), then the word's embedding.

  The kernel forms the sum over a word's tokens as a product with the 0/1 membership matrix, in two passes (the
  hidden value, then the remainder x − x its bf16 splitting leaves over the reals, which is zero for finite x);
  the reference scatters every token into one flat array of 64·256 segments keyed 256·b + w. The two agree when
  every hidden value is finite and every token's word index lies in 0 … 255 (then a flat key names its sentence);
  the lookups agree when every word id lies in 0 … 49999 (the kernel's guarded take then never fills).

  The modules: Spec (the result as one function, and the two-pass law), SegmentSum (the flat scatter's sum is
  the sum over a word's members), RefScatter (the two scatters read at an index), RefValue (the reference's term
  is the specification), PreDecode (the precondition element by element), Payload (the body's arithmetic at an
  index), KernelBlock (the two stored pieces as one block), Take (the guarded lookup is the plain one),
  KernelValue (blocks to the whole array, and the kernel's run).
-/
import proofs.«406176_j45311904973549_3_alg».proof.Defs
import proofs.«406176_j45311904973549_3_alg».proof.Proof.Gen.Kernel
import proofs.«406176_j45311904973549_3_alg».proof.Proof.Gen.Kernel.Skeleton
import proofs.«406176_j45311904973549_3_alg».proof.Proof.Gen.Kernel.Launch
import proofs.«406176_j45311904973549_3_alg».proof.Proof.Gen.Kernel.Points
import proofs.«406176_j45311904973549_3_alg».proof.Proof.Gen.Kernel.Frame
import proofs.«406176_j45311904973549_3_alg».proof.Proof.Gen.KernelIdeal
import proofs.«406176_j45311904973549_3_alg».proof.Proof.Gen.KernelIdeal.Skeleton
import proofs.«406176_j45311904973549_3_alg».proof.Proof.Gen.KernelIdeal.Launch
import proofs.«406176_j45311904973549_3_alg».proof.Proof.Gen.KernelIdeal.Points
import proofs.«406176_j45311904973549_3_alg».proof.Proof.Gen.KernelIdeal.Frame
import proofs.«406176_j45311904973549_3_alg».proof.Proof.Gen.ReferenceIdeal
import proofs.«406176_j45311904973549_3_alg».proof.Proof.Gen.KernelIdeal.Value
import proofs.«406176_j45311904973549_3_alg».proof.Proof.Gen.ReferenceIdeal.Run
import proofs.«406176_j45311904973549_3_alg».proof.Proof.Gen.ReferenceIdeal.Read
import proofs.«406176_j45311904973549_3_alg».proof.Proof.Gen.Pre_finite_inputs
import proofs.«406176_j45311904973549_3_alg».proof.Proof.KernelValue
import proofs.«406176_j45311904973549_3_alg».proof.Proof.RefValue
import proofs.«406176_j45311904973549_3_alg».proof.Proof.PreDecode
import proofs.«406176_j45311904973549_3_alg».proof.Proof.Take
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening back a value narrowed to bf16 is the identity over the reals. -/
theorem preserves : Cert.preserves_Kernel_KernelIdeal := IdealRules.truncf_extf.statement _ .f32 .bf16

/-- Both idealized programs end at the specification over the (agreeing) argument arrays. -/
theorem algebraic : Cert.algebraic_KernelIdeal_ReferenceIdeal := by
  intro m ρ m' ρ' hpre hagree
  have hdec := fun c => Cert.PreDecode.decode _ _ _ _ (hpre c)
  refine ⟨fun c => Cert.Spec.result (Cert.KernelValue.hidArr m c) (Cert.KernelValue.tokArr m c)
      (Cert.Take.taken (Cert.KernelValue.tabArr m c) (Cert.KernelValue.widArr m c)),
    Cert.KernelValue.run m ρ (fun c => (hdec c).1), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v28_eq _ _ _ _).trans ?_
  refine (Cert.RefValue.ref_eq _ _ _ _ (hdec c).2.1).trans ?_
  rw [← Cert.Take.taken_eq _ _ (hdec c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
